-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S40 .f32) (main_arg10 : FVec F S256x128 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x40 .f32) (main_arg9 : FVec F S40 .f32) (main_arg10 : FVec F S256x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg8
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) (main_arg10 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S256x128 : Shape := ⟨2, ![256, 128]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S2000x256 : Shape := ⟨2, ![2000, 256]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 66
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S256x128, .f32⟩
  | .hbm, ⟨11, _⟩ => ⟨S50000x128, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S50000x40, .f32⟩
  | .hbm, ⟨48, _⟩ => ⟨S800000x1, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x40, .f32⟩
  | .hbm, ⟨58, _⟩ => ⟨S800000x40, .f32⟩
  | .hbm, ⟨59, _⟩ => ⟨S800000x40, .f32⟩
  | .hbm, ⟨60, _⟩ => ⟨S_, .f32⟩
  | .hbm, ⟨61, _⟩ => ⟨S50000x40, .f32⟩
  | .hbm, ⟨62, _⟩ => ⟨S800000x1, .i32⟩
  | .hbm, ⟨63, _⟩ => ⟨S50000x40, .f32⟩
  | .hbm, ⟨64, _⟩ => ⟨S1x40, .f32⟩
  | .hbm, ⟨65, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S256x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S256x128, .f32⟩
  | .local _ .vmem, ⟨20, _⟩ => ⟨S128x40, .f32⟩
  | .local _ .vmem, ⟨21, _⟩ => ⟨S2000x40, .f32⟩
  | .local _ .vmem, ⟨22, _⟩ => ⟨S2000x40, .f32⟩
  | .local _ .vmem, ⟨23, _⟩ => ⟨S2000x40, .f32⟩
  | .local _ .vmem, ⟨24, _⟩ => ⟨S2000x40, .f32⟩
  | .local _ .vmem, ⟨25, _⟩ => ⟨S1x40, .f32⟩
  | .local _ .vmem, ⟨26, _⟩ => ⟨S2000x40, .f32⟩
  | .local _ .vmem, ⟨27, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x40.size a ≤ S50000x40.size a
  hwx2_5 : ∀ i : grid2.Coords, EltTy.bits .f32 = 32 ∨ (Rect.block (s := S50000x40) S2000x40.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S2000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v43) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S256x128 : Shape := ⟨2, ![256, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x256 : Shape := ⟨2, ![50000, 256]⟩
abbrev S50000x40 : Shape := ⟨2, ![50000, 40]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S256x128, .f32⟩
  | .hbm, ⟨11, _⟩ => ⟨S50000x128, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x256, .f32⟩
  | .hbm, ⟨35, _⟩ => ⟨S50000x128, .f32⟩
  | .hbm, ⟨36, _⟩ => ⟨S50000x128, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S50000x256, .f32⟩
  | .hbm, ⟨57, _⟩ => ⟨S50000x128, .f32⟩
  | .hbm, ⟨58, _⟩ => ⟨S50000x40, .f32⟩
  | .hbm, ⟨59, _⟩ => ⟨S800000x1, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x40, .f32⟩
  | .hbm, ⟨69, _⟩ => ⟨S800000x40, .f32⟩
  | .hbm, ⟨70, _⟩ => ⟨S800000x40, .f32⟩
  | .hbm, ⟨71, _⟩ => ⟨S_, .f32⟩
  | .hbm, ⟨72, _⟩ => ⟨S50000x40, .f32⟩
  | .hbm, ⟨73, _⟩ => ⟨S800000x1, .i32⟩
  | .hbm, ⟨74, _⟩ => ⟨S50000x40, .f32⟩
  | .hbm, ⟨75, _⟩ => ⟨S1x40, .f32⟩
  | .hbm, ⟨76, _⟩ => ⟨S50000x40, .f32⟩
  | .hbm, ⟨77, _⟩ => ⟨S50000x40, .f32⟩
  | .hbm, ⟨78, _⟩ => ⟨S_, .f32⟩
  | .hbm, ⟨79, _⟩ => ⟨S50000, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S50000x1, .f32⟩
  | .hbm, ⟨84, _⟩ => ⟨S50000x40, .f32⟩
  | .hbm, ⟨85, _⟩ => ⟨S50000x40, .f32⟩
  | .hbm, ⟨86, _⟩ => ⟨S50000x40, .f32⟩
  | .hbm, ⟨87, _⟩ => ⟨S_, .f32⟩
  | .hbm, ⟨88, _⟩ => ⟨S50000, .f32⟩
  | .hbm, ⟨89, _⟩ => ⟨S50000x1, .f32⟩
  | .hbm, ⟨90, _⟩ => ⟨S50000x1, .f32⟩
  | .hbm, ⟨91, _⟩ => ⟨S50000x40, .f32⟩
  | .hbm, ⟨92, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v56 : Ref sig .tc := ⟨.hbm, 92, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.RefRunH.lean ====
/-
  The reference's run, read back stage by stage.

  The reference is one straight line of host operations: a dense product, the sparse multiply, a dense stage, the sparse
  multiply, a dense stage, the sparse multiply, the bias add and the log-softmax. Each stage is named here as one function
  of the arrays it reads (`dense1`, `spmm128`, `dense2`, `dense3`, `spmm40`, `lsm`: literally the stage's operations
  composed), and the run's result is their composition at the arguments' launch contents. No operation writes an argument.
-/
import proofs.«125993_j55147380080825_1_alg».proof.Proof.RefRun
import Idealize.ShloMosaic.Lib.StableHlo.Run

set_option maxRecDepth 16384

noncomputable section

namespace Cert.ReferenceIdeal.RunH

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The first dense product, x · W1. -/
def dense1 (x : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none x W

/-- The sparse multiply of a 50000 × 128 matrix: gather by the wrapped column index, scale by the edge value, scatter-add
    by the row index into zeros. -/
def spmm128 (row col : (⟨S800000, .i32⟩ : BufTy).Contents (Elt F)) (val : (⟨S800000, .f32⟩ : BufTy).Contents (Elt F))
    (sup : (⟨S50000x128, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 row) (mulf (broadcastInDim S800000x128 ![0, 1] bcast_S800000x1_S800000x128_0_1 (broadcastInDim S800000x1 ![0] bcast_S800000_S800000x1_0 val)) (Host.gather gather_S50000x128_S800000x1_S800000x128_1_0_n_n_0_1_1128 sup (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))))

/-- The sparse multiply of a 50000 × 40 matrix. -/
def spmm40 (row col : (⟨S800000, .i32⟩ : BufTy).Contents (Elt F)) (val : (⟨S800000, .f32⟩ : BufTy).Contents (Elt F))
    (sup : (⟨S50000x40, .f32⟩ : BufTy).Contents (Elt F)) : (⟨S50000x40, .f32⟩ : BufTy).Contents (Elt F) :=
  Host.scatterAdd scatter_S50000x40_S800000x1_S800000x40_1_0_0_1 (broadcastInDim S50000x40 ![] bcast_S_S50000x40 (constant S_ .f32 0x00000000#32)) (broadcastInDim S800000x1 ![0] bcast_S800000_S800000x1_0 row) (mulf (broadcastInDim S800000x40 ![0, 1] bcast_S800000x1_S800000x40_0_1 (broadcastInDim S800000x1 ![0] bcast_S800000_S800000x1_0 val)) (Host.gather gather_S50000x40_S800000x1_S800000x40_1_0_n_n_0_1_140 sup (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))))

/-- The second dense stage: ((relu (h + b) ‖ x) · C) · W2. -/
def dense2 (H X : (⟨S50000x128, .f32⟩ : BufTy).Contents (Elt F)) (b : (⟨S128, .f32⟩ : BufTy).Contents (Elt F))
    (Cm : (⟨S256x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none
    (Host.dotGeneral dot_S50000x256_S256x128_S50000x128_1_0_0_1_n_n none
      (concatenate S50000x256 1 [⟨S50000x128, (maximumf (addf H (broadcastInDim S50000x128 ![0, 1] bcast_S1x128_S50000x128_0_1 (broadcastInDim S1x128 ![1] bcast_S128_S1x128_1 b))) (broadcastInDim S50000x128 ![] bcast_S_S50000x128 (constant S_ .f32 0x00000000#32)))⟩, ⟨S50000x128, X⟩] concatenates_S50000x128_S50000x128_S50000x256_d1) Cm) W

/-- The third dense stage: (((h + b) ‖ x) · C) · W3. -/
def dense3 (H X : (⟨S50000x128, .f32⟩ : BufTy).Contents (Elt F)) (b : (⟨S128, .f32⟩ : BufTy).Contents (Elt F))
    (Cm : (⟨S256x128, .f32⟩ : BufTy).Contents (Elt F)) (W : (⟨S128x40, .f32⟩ : BufTy).Contents (Elt F)) :
    (⟨S50000x40, .f32⟩ : BufTy).Contents (Elt F) :=
  Host.dotGeneral dot_S50000x128_S128x40_S50000x40_1_0_0_1_n_n none
    (Host.dotGeneral dot_S50000x256_S256x128_S50000x128_1_0_0_1_n_n none
      (concatenate S50000x256 1 [⟨S50000x128, (addf H (broadcastInDim S50000x128 ![0, 1] bcast_S1x128_S50000x128_0_1 (broadcastInDim S1x128 ![1] bcast_S128_S1x128_1 b)))⟩, ⟨S50000x128, X⟩] concatenates_S50000x128_S50000x128_S50000x256_d1) Cm) W

/-- The bias add followed by the log-softmax along the rows. -/
def lsm (H : (⟨S50000x40, .f32⟩ : BufTy).Contents (Elt F)) (b : (⟨S40, .f32⟩ : BufTy).Contents (Elt F)) :
    (⟨S50000x40, .f32⟩ : BufTy).Contents (Elt F) :=
  subf (subf (addf H (broadcastInDim S50000x40 ![0, 1] bcast_S1x40_S50000x40_0_1 (broadcastInDim S1x40 ![1] bcast_S40_S1x40_1 b)))
        (broadcastInDim S50000x40 ![0, 1] bcast_S50000x1_S50000x40_0_1 (broadcastInDim S50000x1 ![0] bcast_S50000_S50000x1_0
          (maximumf (broadcastInDim S50000 ![] bcast_S_S50000 (constant S_ .f32 0xFF800000#32))
            (Host.reduce FloatOps.maximumf (addf H (broadcastInDim S50000x40 ![0, 1] bcast_S1x40_S50000x40_0_1 (broadcastInDim S1x40 ![1] bcast_S40_S1x40_1 b))) (constant S_ .f32 0xFF800000#32) reducesTo_S50000x40_S50000_d1 h_S_)))))
      (broadcastInDim S50000x40 ![0, 1] bcast_S50000x1_S50000x40_0_1 (Host.log (broadcastInDim S50000x1 ![0] bcast_S50000_S50000x1_0
        (Host.reduceAdd (Host.exp (subf (addf H (broadcastInDim S50000x40 ![0, 1] bcast_S1x40_S50000x40_0_1 (broadcastInDim S1x40 ![1] bcast_S40_S1x40_1 b)))
            (broadcastInDim S50000x40 ![0, 1] bcast_S50000x1_S50000x40_0_1 (broadcastInDim S50000x1 ![0] bcast_S50000_S50000x1_0
              (maximumf (broadcastInDim S50000 ![] bcast_S_S50000 (constant S_ .f32 0xFF800000#32))
                (Host.reduce FloatOps.maximumf (addf H (broadcastInDim S50000x40 ![0, 1] bcast_S1x40_S50000x40_0_1 (broadcastInDim S1x40 ![1] bcast_S40_S1x40_1 b))) (constant S_ .f32 0xFF800000#32) reducesTo_S50000x40_S50000_d1 h_S_))))))
          (constant S_ .f32 0x00000000#32) reducesTo_S50000x40_S50000_d1 h_S_))))

/-! ## The run cut into its seven stages

The operations of @main, in order, as seven lists, one per stage; the whole list is their concatenation, and the contents
after a concatenation are the contents after its second part from the contents after its first. -/

/-- The first dense product's one operation. -/
def stretch1 : List (HloOp τ sig (Elt F)) :=
  [ binary main_arg0 main_arg4 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The sixteen operations of the first sparse multiply. -/
def stretch2 : List (HloOp τ sig (Elt F)) :=
  [ unary main_arg3 main_v1 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_arg2 main_v2 main_v3 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v4 (broadcastInDim S800000 ![] bcast_S_S800000 : (⟨S_, .i32⟩ : BufTy).Contents (Elt F) → (⟨S800000, .i32⟩ : BufTy).Contents (Elt F)),
    binary main_arg2 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_arg2 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    binary main_v0 main_v7 main_v8 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v1 main_v9 (broadcastInDim S800000x128 ![0, 1] bcast_S800000x1_S800000x128_0_1 : (⟨S800000x1, .f32⟩ : BufTy).Contents (Elt F) → (⟨S800000x128, .f32⟩ : BufTy).Contents (Elt F)),
    binary main_v9 main_v8 main_v10 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_arg1 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The nine operations of the second dense stage: the bias add, the comparison with zero, the concatenation and the two products. -/
def stretch3 : List (HloOp τ sig (Elt F)) :=
  [ unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v16) (TRef.of (T := ⟨S50000x128, .f32⟩) main_call0_v0) (TRef.of (T := ⟨S50000x128, .f32⟩) main_v17) maximumf,
    binary main_v17 main_arg0 main_v18 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v18 main_arg10 main_v19 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v19 main_arg6 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The sixteen operations of the second sparse multiply. -/
def stretch4 : List (HloOp τ sig (Elt F)) :=
  [ unary main_arg3 main_v21 (broadcastInDim S800000x1 ![0] bcast_S800000_S800000x1_0 : (⟨S800000, .f32⟩ : BufTy).Contents (Elt F) → (⟨S800000x1, .f32⟩ : BufTy).Contents (Elt F)),
    nullary main_c_1 (constantI S_ 32 0#32),
    unary main_c_1 main_v22 (broadcastInDim S800000 ![] bcast_S_S800000 : (⟨S_, .i32⟩ : BufTy).Contents (Elt F) → (⟨S800000, .i32⟩ : BufTy).Contents (Elt F)),
    binary main_arg2 main_v22 main_v23 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v24 (broadcastInDim S800000 ![] bcast_S_S800000 : (⟨S_, .i32⟩ : BufTy).Contents (Elt F) → (⟨S800000, .i32⟩ : BufTy).Contents (Elt F)),
    binary main_arg2 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_arg2 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v20 main_v27 main_v28 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v21 main_v29 (broadcastInDim S800000x128 ![0, 1] bcast_S800000x1_S800000x128_0_1 : (⟨S800000x1, .f32⟩ : BufTy).Contents (Elt F) → (⟨S800000x128, .f32⟩ : BufTy).Contents (Elt F)),
    binary main_v29 main_v28 main_v30 (mulf : (⟨S800000x128, .f32⟩ : BufTy).Contents (Elt F) → (⟨S800000x128, .f32⟩ : BufTy).Contents (Elt F) → (⟨S800000x128, .f32⟩ : BufTy).Contents (Elt F)),
    nullary main_cst_3 (constant S_ .f32 0x00000000#32),
    unary main_cst_3 main_v31 (broadcastInDim S50000x128 ![] bcast_S_S50000x128 : (⟨S_, .f32⟩ : BufTy).Contents (Elt F) → (⟨S50000x128, .f32⟩ : BufTy).Contents (Elt F)),
    unary main_arg1 main_v32 (broadcastInDim S800000x1 ![0] bcast_S800000_S800000x1_0 : (⟨S800000, .i32⟩ : BufTy).Contents (Elt F) → (⟨S800000x1, .i32⟩ : BufTy).Contents (Elt F)),
    ternary main_v31 main_v32 main_v30 main_v33 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The six operations of the third dense stage. -/
def stretch5 : List (HloOp τ sig (Elt F)) :=
  [ unary main_arg7 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v33 main_v35 main_v36 (addf : (⟨S50000x128, .f32⟩ : BufTy).Contents (Elt F) → (⟨S50000x128, .f32⟩ : BufTy).Contents (Elt F) → (⟨S50000x128, .f32⟩ : BufTy).Contents (Elt F)),
    binary main_v36 main_arg0 main_v37 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v37 main_arg10 main_v38 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v38 main_arg8 main_v39 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]

/-- The sixteen operations of the third sparse multiply. -/
def stretch6 : List (HloOp τ sig (Elt F)) :=
  [ unary main_arg3 main_v40 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v41 (broadcastInDim S800000 ![] bcast_S_S800000 : (⟨S_, .i32⟩ : BufTy).Contents (Elt F) → (⟨S800000, .i32⟩ : BufTy).Contents (Elt F)),
    binary main_arg2 main_v41 main_v42 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v43 (broadcastInDim S800000 ![] bcast_S_S800000 : (⟨S_, .i32⟩ : BufTy).Contents (Elt F) → (⟨S800000, .i32⟩ : BufTy).Contents (Elt F)),
    binary main_arg2 main_v43 main_v44 (addi : (⟨S800000, .i32⟩ : BufTy).Contents (Elt F) → (⟨S800000, .i32⟩ : BufTy).Contents (Elt F) → (⟨S800000, .i32⟩ : BufTy).Contents (Elt F)),
    ternary main_v42 main_v44 main_arg2 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v45 main_v46 (broadcastInDim S800000x1 ![0] bcast_S800000_S800000x1_0 : (⟨S800000, .i32⟩ : BufTy).Contents (Elt F) → (⟨S800000x1, .i32⟩ : BufTy).Contents (Elt F)),
    binary main_v39 main_v46 main_v47 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v40 main_v48 (broadcastInDim S800000x40 ![0, 1] bcast_S800000x1_S800000x40_0_1 : (⟨S800000x1, .f32⟩ : BufTy).Contents (Elt F) → (⟨S800000x40, .f32⟩ : BufTy).Contents (Elt F)),
    binary main_v48 main_v47 main_v49 (mulf : (⟨S800000x40, .f32⟩ : BufTy).Contents (Elt F) → (⟨S800000x40, .f32⟩ : BufTy).Contents (Elt F) → (⟨S800000x40, .f32⟩ : BufTy).Contents (Elt F)),
    nullary main_cst_6 (constant S_ .f32 0x00000000#32),
    unary main_cst_6 main_v50 (broadcastInDim S50000x40 ![] bcast_S_S50000x40 : (⟨S_, .f32⟩ : BufTy).Contents (Elt F) → (⟨S50000x40, .f32⟩ : BufTy).Contents (Elt F)),
    unary main_arg1 main_v51 (broadcastInDim S800000x1 ![0] bcast_S800000_S800000x1_0 : (⟨S800000, .i32⟩ : BufTy).Contents (Elt F) → (⟨S800000x1, .i32⟩ : BufTy).Contents (Elt F)),
    ternary main_v50 main_v51 main_v49 main_v52 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)) ]

/-- The eighteen operations of the bias add and the log-softmax. -/
def stretch7 : List (HloOp τ sig (Elt F)) :=
  [ unary main_arg9 main_v53 (broadcastInDim S1x40 ![1] bcast_S40_S1x40_1 : (⟨S40, .f32⟩ : BufTy).Contents (Elt F) → (⟨S1x40, .f32⟩ : BufTy).Contents (Elt F)),
    unary main_v53 main_v54 (broadcastInDim S50000x40 ![0, 1] bcast_S1x40_S50000x40_0_1 : (⟨S1x40, .f32⟩ : BufTy).Contents (Elt F) → (⟨S50000x40, .f32⟩ : BufTy).Contents (Elt F)),
    binary main_v52 main_v54 main_v55 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v55) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v55) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v56) subf ]

/-- @main's operations are the seven stages' operations in order. -/
theorem ops_split : (ops : List (HloOp τ sig (Elt F)))
    = stretch1 ++ (stretch2 ++ (stretch3 ++ (stretch4 ++ (stretch5 ++ (stretch6 ++ stretch7))))) := rfl

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Contents at a buffer's type and at the value's type

A called function's operations name their buffers with the type of the value each holds; the contents pass between the
two types along the equation of the types, which for a literal buffer is the identity. -/

/-- Contents carried to a buffer's type and back are the contents. -/
theorem ofBuf_toBuf_of {T : BufTy} (r : Ref sig .tc) (h1 : r.ty = T) (h2 : r.space ≠ .host) (h3 : r.isScoped = false)
    (v : T.Contents (Elt F)) :
    (TRef.of (T := T) r h1 h2 h3).ofBuf ((TRef.of (T := T) r h1 h2 h3).toBuf v) = v := by
  subst h1
  rfl

/-- At the buffer of h + b (a 50000 × 40 array) the passage to the value's type is the identity. -/
theorem ofBuf_v55 (h1 : (main_v55 : Ref sig .tc).ty = ⟨S50000x40, .f32⟩) (h2 : (main_v55 : Ref sig .tc).space ≠ .host)
    (h3 : (main_v55 : Ref sig .tc).isScoped = false) (v : (main_v55 : Ref sig .tc).ty.Contents (Elt F)) :
    (TRef.of (T := ⟨S50000x40, .f32⟩) main_v55 h1 h2 h3).ofBuf v = v := rfl

/-- At the result's buffer (a 50000 × 40 array) the passage from the value's type is the identity. -/
theorem toBuf_v56 (h1 : (main_v56 : Ref sig .tc).ty = ⟨S50000x40, .f32⟩) (h2 : (main_v56 : Ref sig .tc).space ≠ .host)
    (h3 : (main_v56 : Ref sig .tc).isScoped = false) (v : (⟨S50000x40, .f32⟩ : BufTy).Contents (Elt F)) :
    (TRef.of (T := ⟨S50000x40, .f32⟩) main_v56 h1 h2 h3).toBuf v = v := rfl

/-! ## Each stage's result, from any contents

From any contents `U` of the buffers, a stage leaves in its result buffer the stage's function of what `U` holds in the
buffers it reads. -/

theorem stretch1_res (U : Valuation τ sig (Elt F)) :
    after stretch1 U (Proc.devRef .tc main_v0) = dense1 (U (Proc.devRef .tc main_arg0)) (U (Proc.devRef .tc main_arg4)) := by
  unfold stretch1
  after_results_simp <;> rfl

theorem stretch2_res (U : Valuation τ sig (Elt F)) :
    after stretch2 U (Proc.devRef .tc main_v13)
      = spmm128 (U (Proc.devRef .tc main_arg1)) (U (Proc.devRef .tc main_arg2)) (U (Proc.devRef .tc main_arg3)) (U (Proc.devRef .tc main_v0)) := by
  unfold stretch2
  after_results_simp <;> rfl

theorem stretch3_res (U : Valuation τ sig (Elt F)) :
    after stretch3 U (Proc.devRef .tc main_v20)
      = dense2 (U (Proc.devRef .tc main_v13)) (U (Proc.devRef .tc main_arg0)) (U (Proc.devRef .tc main_arg5)) (U (Proc.devRef .tc main_arg10)) (U (Proc.devRef .tc main_arg6)) := by
  unfold stretch3
  after_results_simp <;> (try simp only [TRef.ofBuf, TRef.toBuf, cast_eq]) <;> rfl

theorem stretch4_res (U : Valuation τ sig (Elt F)) :
    after stretch4 U (Proc.devRef .tc main_v33)
      = spmm128 (U (Proc.devRef .tc main_arg1)) (U (Proc.devRef .tc main_arg2)) (U (Proc.devRef .tc main_arg3)) (U (Proc.devRef .tc main_v20)) := by
  unfold stretch4
  after_results_simp <;> rfl

theorem stretch5_res (U : Valuation τ sig (Elt F)) :
    after stretch5 U (Proc.devRef .tc main_v39)
      = dense3 (U (Proc.devRef .tc main_v33)) (U (Proc.devRef .tc main_arg0)) (U (Proc.devRef .tc main_arg7)) (U (Proc.devRef .tc main_arg10)) (U (Proc.devRef .tc main_arg8)) := by
  unfold stretch5
  after_results_simp <;> rfl

theorem stretch6_res (U : Valuation τ sig (Elt F)) :
    after stretch6 U (Proc.devRef .tc main_v52)
      = spmm40 (U (Proc.devRef .tc main_arg1)) (U (Proc.devRef .tc main_arg2)) (U (Proc.devRef .tc main_arg3)) (U (Proc.devRef .tc main_v39)) := by
  unfold stretch6
  after_results_simp <;> rfl

theorem stretch7_res (U : Valuation τ sig (Elt F)) :
    after stretch7 U (Proc.devRef .tc main_v56) = lsm (U (Proc.devRef .tc main_v52)) (U (Proc.devRef .tc main_arg9)) := by
  unfold stretch7
  after_results_simp
  simp only [ofBuf_toBuf_of, ofBuf_v55, toBuf_v56]
  rfl

/-! ## No stage writes an argument

From any contents, a stage leaves each argument's buffer as it found it. -/

theorem stretch1_arg0 (U : Valuation τ sig (Elt F)) :
    after stretch1 U (Proc.devRef .tc main_arg0) = U (Proc.devRef .tc main_arg0) := by
  unfold stretch1
  after_results_simp <;> rfl
theorem stretch1_arg1 (U : Valuation τ sig (Elt F)) :
    after stretch1 U (Proc.devRef .tc main_arg1) = U (Proc.devRef .tc main_arg1) := by
  unfold stretch1
  after_results_simp <;> rfl
theorem stretch1_arg2 (U : Valuation τ sig (Elt F)) :
    after stretch1 U (Proc.devRef .tc main_arg2) = U (Proc.devRef .tc main_arg2) := by
  unfold stretch1
  after_results_simp <;> rfl
theorem stretch1_arg3 (U : Valuation τ sig (Elt F)) :
    after stretch1 U (Proc.devRef .tc main_arg3) = U (Proc.devRef .tc main_arg3) := by
  unfold stretch1
  after_results_simp <;> rfl
theorem stretch1_arg4 (U : Valuation τ sig (Elt F)) :
    after stretch1 U (Proc.devRef .tc main_arg4) = U (Proc.devRef .tc main_arg4) := by
  unfold stretch1
  after_results_simp <;> rfl
theorem stretch1_arg5 (U : Valuation τ sig (Elt F)) :
    after stretch1 U (Proc.devRef .tc main_arg5) = U (Proc.devRef .tc main_arg5) := by
  unfold stretch1
  after_results_simp <;> rfl
theorem stretch1_arg6 (U : Valuation τ sig (Elt F)) :
    after stretch1 U (Proc.devRef .tc main_arg6) = U (Proc.devRef .tc main_arg6) := by
  unfold stretch1
  after_results_simp <;> rfl
theorem stretch1_arg7 (U : Valuation τ sig (Elt F)) :
    after stretch1 U (Proc.devRef .tc main_arg7) = U (Proc.devRef .tc main_arg7) := by
  unfold stretch1
  after_results_simp <;> rfl
theorem stretch1_arg8 (U : Valuation τ sig (Elt F)) :
    after stretch1 U (Proc.devRef .tc main_arg8) = U (Proc.devRef .tc main_arg8) := by
  unfold stretch1
  after_results_simp <;> rfl
theorem stretch1_arg9 (U : Valuation τ sig (Elt F)) :
    after stretch1 U (Proc.devRef .tc main_arg9) = U (Proc.devRef .tc main_arg9) := by
  unfold stretch1
  after_results_simp <;> rfl
theorem stretch1_arg10 (U : Valuation τ sig (Elt F)) :
    after stretch1 U (Proc.devRef .tc main_arg10) = U (Proc.devRef .tc main_arg10) := by
  unfold stretch1
  after_results_simp <;> rfl
theorem stretch2_arg0 (U : Valuation τ sig (Elt F)) :
    after stretch2 U (Proc.devRef .tc main_arg0) = U (Proc.devRef .tc main_arg0) := by
  unfold stretch2
  after_results_simp <;> rfl
theorem stretch2_arg1 (U : Valuation τ sig (Elt F)) :
    after stretch2 U (Proc.devRef .tc main_arg1) = U (Proc.devRef .tc main_arg1) := by
  unfold stretch2
  after_results_simp <;> rfl
theorem stretch2_arg2 (U : Valuation τ sig (Elt F)) :
    after stretch2 U (Proc.devRef .tc main_arg2) = U (Proc.devRef .tc main_arg2) := by
  unfold stretch2
  after_results_simp <;> rfl
theorem stretch2_arg3 (U : Valuation τ sig (Elt F)) :
    after stretch2 U (Proc.devRef .tc main_arg3) = U (Proc.devRef .tc main_arg3) := by
  unfold stretch2
  after_results_simp <;> rfl
theorem stretch2_arg4 (U : Valuation τ sig (Elt F)) :
    after stretch2 U (Proc.devRef .tc main_arg4) = U (Proc.devRef .tc main_arg4) := by
  unfold stretch2
  after_results_simp <;> rfl
theorem stretch2_arg5 (U : Valuation τ sig (Elt F)) :
    after stretch2 U (Proc.devRef .tc main_arg5) = U (Proc.devRef .tc main_arg5) := by
  unfold stretch2
  after_results_simp <;> rfl
theorem stretch2_arg6 (U : Valuation τ sig (Elt F)) :
    after stretch2 U (Proc.devRef .tc main_arg6) = U (Proc.devRef .tc main_arg6) := by
  unfold stretch2
  after_results_simp <;> rfl
theorem stretch2_arg7 (U : Valuation τ sig (Elt F)) :
    after stretch2 U (Proc.devRef .tc main_arg7) = U (Proc.devRef .tc main_arg7) := by
  unfold stretch2
  after_results_simp <;> rfl
theorem stretch2_arg8 (U : Valuation τ sig (Elt F)) :
    after stretch2 U (Proc.devRef .tc main_arg8) = U (Proc.devRef .tc main_arg8) := by
  unfold stretch2
  after_results_simp <;> rfl
theorem stretch2_arg9 (U : Valuation τ sig (Elt F)) :
    after stretch2 U (Proc.devRef .tc main_arg9) = U (Proc.devRef .tc main_arg9) := by
  unfold stretch2
  after_results_simp <;> rfl
theorem stretch2_arg10 (U : Valuation τ sig (Elt F)) :
    after stretch2 U (Proc.devRef .tc main_arg10) = U (Proc.devRef .tc main_arg10) := by
  unfold stretch2
  after_results_simp <;> rfl
theorem stretch3_arg0 (U : Valuation τ sig (Elt F)) :
    after stretch3 U (Proc.devRef .tc main_arg0) = U (Proc.devRef .tc main_arg0) := by
  unfold stretch3
  after_results_simp <;> rfl
theorem stretch3_arg1 (U : Valuation τ sig (Elt F)) :
    after stretch3 U (Proc.devRef .tc main_arg1) = U (Proc.devRef .tc main_arg1) := by
  unfold stretch3
  after_results_simp <;> rfl
theorem stretch3_arg2 (U : Valuation τ sig (Elt F)) :
    after stretch3 U (Proc.devRef .tc main_arg2) = U (Proc.devRef .tc main_arg2) := by
  unfold stretch3
  after_results_simp <;> rfl
theorem stretch3_arg3 (U : Valuation τ sig (Elt F)) :
    after stretch3 U (Proc.devRef .tc main_arg3) = U (Proc.devRef .tc main_arg3) := by
  unfold stretch3
  after_results_simp <;> rfl
theorem stretch3_arg4 (U : Valuation τ sig (Elt F)) :
    after stretch3 U (Proc.devRef .tc main_arg4) = U (Proc.devRef .tc main_arg4) := by
  unfold stretch3
  after_results_simp <;> rfl
theorem stretch3_arg5 (U : Valuation τ sig (Elt F)) :
    after stretch3 U (Proc.devRef .tc main_arg5) = U (Proc.devRef .tc main_arg5) := by
  unfold stretch3
  after_results_simp <;> rfl
theorem stretch3_arg6 (U : Valuation τ sig (Elt F)) :
    after stretch3 U (Proc.devRef .tc main_arg6) = U (Proc.devRef .tc main_arg6) := by
  unfold stretch3
  after_results_simp <;> rfl
theorem stretch3_arg7 (U : Valuation τ sig (Elt F)) :
    after stretch3 U (Proc.devRef .tc main_arg7) = U (Proc.devRef .tc main_arg7) := by
  unfold stretch3
  after_results_simp <;> rfl
theorem stretch3_arg8 (U : Valuation τ sig (Elt F)) :
    after stretch3 U (Proc.devRef .tc main_arg8) = U (Proc.devRef .tc main_arg8) := by
  unfold stretch3
  after_results_simp <;> rfl
theorem stretch3_arg9 (U : Valuation τ sig (Elt F)) :
    after stretch3 U (Proc.devRef .tc main_arg9) = U (Proc.devRef .tc main_arg9) := by
  unfold stretch3
  after_results_simp <;> rfl
theorem stretch3_arg10 (U : Valuation τ sig (Elt F)) :
    after stretch3 U (Proc.devRef .tc main_arg10) = U (Proc.devRef .tc main_arg10) := by
  unfold stretch3
  after_results_simp <;> rfl
theorem stretch4_arg0 (U : Valuation τ sig (Elt F)) :
    after stretch4 U (Proc.devRef .tc main_arg0) = U (Proc.devRef .tc main_arg0) := by
  unfold stretch4
  after_results_simp <;> rfl
theorem stretch4_arg1 (U : Valuation τ sig (Elt F)) :
    after stretch4 U (Proc.devRef .tc main_arg1) = U (Proc.devRef .tc main_arg1) := by
  unfold stretch4
  after_results_simp <;> rfl
theorem stretch4_arg2 (U : Valuation τ sig (Elt F)) :
    after stretch4 U (Proc.devRef .tc main_arg2) = U (Proc.devRef .tc main_arg2) := by
  unfold stretch4
  after_results_simp <;> rfl
theorem stretch4_arg3 (U : Valuation τ sig (Elt F)) :
    after stretch4 U (Proc.devRef .tc main_arg3) = U (Proc.devRef .tc main_arg3) := by
  unfold stretch4
  after_results_simp <;> rfl
theorem stretch4_arg4 (U : Valuation τ sig (Elt F)) :
    after stretch4 U (Proc.devRef .tc main_arg4) = U (Proc.devRef .tc main_arg4) := by
  unfold stretch4
  after_results_simp <;> rfl
theorem stretch4_arg5 (U : Valuation τ sig (Elt F)) :
    after stretch4 U (Proc.devRef .tc main_arg5) = U (Proc.devRef .tc main_arg5) := by
  unfold stretch4
  after_results_simp <;> rfl
theorem stretch4_arg6 (U : Valuation τ sig (Elt F)) :
    after stretch4 U (Proc.devRef .tc main_arg6) = U (Proc.devRef .tc main_arg6) := by
  unfold stretch4
  after_results_simp <;> rfl
theorem stretch4_arg7 (U : Valuation τ sig (Elt F)) :
    after stretch4 U (Proc.devRef .tc main_arg7) = U (Proc.devRef .tc main_arg7) := by
  unfold stretch4
  after_results_simp <;> rfl
theorem stretch4_arg8 (U : Valuation τ sig (Elt F)) :
    after stretch4 U (Proc.devRef .tc main_arg8) = U (Proc.devRef .tc main_arg8) := by
  unfold stretch4
  after_results_simp <;> rfl
theorem stretch4_arg9 (U : Valuation τ sig (Elt F)) :
    after stretch4 U (Proc.devRef .tc main_arg9) = U (Proc.devRef .tc main_arg9) := by
  unfold stretch4
  after_results_simp <;> rfl
theorem stretch4_arg10 (U : Valuation τ sig (Elt F)) :
    after stretch4 U (Proc.devRef .tc main_arg10) = U (Proc.devRef .tc main_arg10) := by
  unfold stretch4
  after_results_simp <;> rfl
theorem stretch5_arg0 (U : Valuation τ sig (Elt F)) :
    after stretch5 U (Proc.devRef .tc main_arg0) = U (Proc.devRef .tc main_arg0) := by
  unfold stretch5
  after_results_simp <;> rfl
theorem stretch5_arg1 (U : Valuation τ sig (Elt F)) :
    after stretch5 U (Proc.devRef .tc main_arg1) = U (Proc.devRef .tc main_arg1) := by
  unfold stretch5
  after_results_simp <;> rfl
theorem stretch5_arg2 (U : Valuation τ sig (Elt F)) :
    after stretch5 U (Proc.devRef .tc main_arg2) = U (Proc.devRef .tc main_arg2) := by
  unfold stretch5
  after_results_simp <;> rfl
theorem stretch5_arg3 (U : Valuation τ sig (Elt F)) :
    after stretch5 U (Proc.devRef .tc main_arg3) = U (Proc.devRef .tc main_arg3) := by
  unfold stretch5
  after_results_simp <;> rfl
theorem stretch5_arg4 (U : Valuation τ sig (Elt F)) :
    after stretch5 U (Proc.devRef .tc main_arg4) = U (Proc.devRef .tc main_arg4) := by
  unfold stretch5
  after_results_simp <;> rfl
theorem stretch5_arg5 (U : Valuation τ sig (Elt F)) :
    after stretch5 U (Proc.devRef .tc main_arg5) = U (Proc.devRef .tc main_arg5) := by
  unfold stretch5
  after_results_simp <;> rfl
theorem stretch5_arg6 (U : Valuation τ sig (Elt F)) :
    after stretch5 U (Proc.devRef .tc main_arg6) = U (Proc.devRef .tc main_arg6) := by
  unfold stretch5
  after_results_simp <;> rfl
theorem stretch5_arg7 (U : Valuation τ sig (Elt F)) :
    after stretch5 U (Proc.devRef .tc main_arg7) = U (Proc.devRef .tc main_arg7) := by
  unfold stretch5
  after_results_simp <;> rfl
theorem stretch5_arg8 (U : Valuation τ sig (Elt F)) :
    after stretch5 U (Proc.devRef .tc main_arg8) = U (Proc.devRef .tc main_arg8) := by
  unfold stretch5
  after_results_simp <;> rfl
theorem stretch5_arg9 (U : Valuation τ sig (Elt F)) :
    after stretch5 U (Proc.devRef .tc main_arg9) = U (Proc.devRef .tc main_arg9) := by
  unfold stretch5
  after_results_simp <;> rfl
theorem stretch5_arg10 (U : Valuation τ sig (Elt F)) :
    after stretch5 U (Proc.devRef .tc main_arg10) = U (Proc.devRef .tc main_arg10) := by
  unfold stretch5
  after_results_simp <;> rfl
theorem stretch6_arg0 (U : Valuation τ sig (Elt F)) :
    after stretch6 U (Proc.devRef .tc main_arg0) = U (Proc.devRef .tc main_arg0) := by
  unfold stretch6
  after_results_simp <;> rfl
theorem stretch6_arg1 (U : Valuation τ sig (Elt F)) :
    after stretch6 U (Proc.devRef .tc main_arg1) = U (Proc.devRef .tc main_arg1) := by
  unfold stretch6
  after_results_simp <;> rfl
theorem stretch6_arg2 (U : Valuation τ sig (Elt F)) :
    after stretch6 U (Proc.devRef .tc main_arg2) = U (Proc.devRef .tc main_arg2) := by
  unfold stretch6
  after_results_simp <;> rfl
theorem stretch6_arg3 (U : Valuation τ sig (Elt F)) :
    after stretch6 U (Proc.devRef .tc main_arg3) = U (Proc.devRef .tc main_arg3) := by
  unfold stretch6
  after_results_simp <;> rfl
theorem stretch6_arg4 (U : Valuation τ sig (Elt F)) :
    after stretch6 U (Proc.devRef .tc main_arg4) = U (Proc.devRef .tc main_arg4) := by
  unfold stretch6
  after_results_simp <;> rfl
theorem stretch6_arg5 (U : Valuation τ sig (Elt F)) :
    after stretch6 U (Proc.devRef .tc main_arg5) = U (Proc.devRef .tc main_arg5) := by
  unfold stretch6
  after_results_simp <;> rfl
theorem stretch6_arg6 (U : Valuation τ sig (Elt F)) :
    after stretch6 U (Proc.devRef .tc main_arg6) = U (Proc.devRef .tc main_arg6) := by
  unfold stretch6
  after_results_simp <;> rfl
theorem stretch6_arg7 (U : Valuation τ sig (Elt F)) :
    after stretch6 U (Proc.devRef .tc main_arg7) = U (Proc.devRef .tc main_arg7) := by
  unfold stretch6
  after_results_simp <;> rfl
theorem stretch6_arg8 (U : Valuation τ sig (Elt F)) :
    after stretch6 U (Proc.devRef .tc main_arg8) = U (Proc.devRef .tc main_arg8) := by
  unfold stretch6
  after_results_simp <;> rfl
theorem stretch6_arg9 (U : Valuation τ sig (Elt F)) :
    after stretch6 U (Proc.devRef .tc main_arg9) = U (Proc.devRef .tc main_arg9) := by
  unfold stretch6
  after_results_simp <;> rfl
theorem stretch6_arg10 (U : Valuation τ sig (Elt F)) :
    after stretch6 U (Proc.devRef .tc main_arg10) = U (Proc.devRef .tc main_arg10) := by
  unfold stretch6
  after_results_simp <;> rfl
theorem stretch7_arg0 (U : Valuation τ sig (Elt F)) :
    after stretch7 U (Proc.devRef .tc main_arg0) = U (Proc.devRef .tc main_arg0) := by
  unfold stretch7
  after_results_simp <;> rfl
theorem stretch7_arg1 (U : Valuation τ sig (Elt F)) :
    after stretch7 U (Proc.devRef .tc main_arg1) = U (Proc.devRef .tc main_arg1) := by
  unfold stretch7
  after_results_simp <;> rfl
theorem stretch7_arg2 (U : Valuation τ sig (Elt F)) :
    after stretch7 U (Proc.devRef .tc main_arg2) = U (Proc.devRef .tc main_arg2) := by
  unfold stretch7
  after_results_simp <;> rfl
theorem stretch7_arg3 (U : Valuation τ sig (Elt F)) :
    after stretch7 U (Proc.devRef .tc main_arg3) = U (Proc.devRef .tc main_arg3) := by
  unfold stretch7
  after_results_simp <;> rfl
theorem stretch7_arg4 (U : Valuation τ sig (Elt F)) :
    after stretch7 U (Proc.devRef .tc main_arg4) = U (Proc.devRef .tc main_arg4) := by
  unfold stretch7
  after_results_simp <;> rfl
theorem stretch7_arg5 (U : Valuation τ sig (Elt F)) :
    after stretch7 U (Proc.devRef .tc main_arg5) = U (Proc.devRef .tc main_arg5) := by
  unfold stretch7
  after_results_simp <;> rfl
theorem stretch7_arg6 (U : Valuation τ sig (Elt F)) :
    after stretch7 U (Proc.devRef .tc main_arg6) = U (Proc.devRef .tc main_arg6) := by
  unfold stretch7
  after_results_simp <;> rfl
theorem stretch7_arg7 (U : Valuation τ sig (Elt F)) :
    after stretch7 U (Proc.devRef .tc main_arg7) = U (Proc.devRef .tc main_arg7) := by
  unfold stretch7
  after_results_simp <;> rfl
theorem stretch7_arg8 (U : Valuation τ sig (Elt F)) :
    after stretch7 U (Proc.devRef .tc main_arg8) = U (Proc.devRef .tc main_arg8) := by
  unfold stretch7
  after_results_simp <;> rfl
theorem stretch7_arg9 (U : Valuation τ sig (Elt F)) :
    after stretch7 U (Proc.devRef .tc main_arg9) = U (Proc.devRef .tc main_arg9) := by
  unfold stretch7
  after_results_simp <;> rfl
theorem stretch7_arg10 (U : Valuation τ sig (Elt F)) :
    after stretch7 U (Proc.devRef .tc main_arg10) = U (Proc.devRef .tc main_arg10) := by
  unfold stretch7
  after_results_simp <;> rfl

/-! ## The stages chained -/

/-- From any contents `V`, the whole line leaves each argument's buffer as it found it. -/
theorem ops_arg0 (V : Valuation τ sig (Elt F)) :
    after ops V (Proc.devRef .tc main_arg0) = V (Proc.devRef .tc main_arg0) := by
  rw [ops_split, after_app, after_app, after_app, after_app, after_app, after_app,
    stretch7_arg0, stretch6_arg0, stretch5_arg0, stretch4_arg0, stretch3_arg0, stretch2_arg0, stretch1_arg0]
theorem ops_arg1 (V : Valuation τ sig (Elt F)) :
    after ops V (Proc.devRef .tc main_arg1) = V (Proc.devRef .tc main_arg1) := by
  rw [ops_split, after_app, after_app, after_app, after_app, after_app, after_app,
    stretch7_arg1, stretch6_arg1, stretch5_arg1, stretch4_arg1, stretch3_arg1, stretch2_arg1, stretch1_arg1]
theorem ops_arg2 (V : Valuation τ sig (Elt F)) :
    after ops V (Proc.devRef .tc main_arg2) = V (Proc.devRef .tc main_arg2) := by
  rw [ops_split, after_app, after_app, after_app, after_app, after_app, after_app,
    stretch7_arg2, stretch6_arg2, stretch5_arg2, stretch4_arg2, stretch3_arg2, stretch2_arg2, stretch1_arg2]
theorem ops_arg3 (V : Valuation τ sig (Elt F)) :
    after ops V (Proc.devRef .tc main_arg3) = V (Proc.devRef .tc main_arg3) := by
  rw [ops_split, after_app, after_app, after_app, after_app, after_app, after_app,
    stretch7_arg3, stretch6_arg3, stretch5_arg3, stretch4_arg3, stretch3_arg3, stretch2_arg3, stretch1_arg3]
theorem ops_arg4 (V : Valuation τ sig (Elt F)) :
    after ops V (Proc.devRef .tc main_arg4) = V (Proc.devRef .tc main_arg4) := by
  rw [ops_split, after_app, after_app, after_app, after_app, after_app, after_app,
    stretch7_arg4, stretch6_arg4, stretch5_arg4, stretch4_arg4, stretch3_arg4, stretch2_arg4, stretch1_arg4]
theorem ops_arg5 (V : Valuation τ sig (Elt F)) :
    after ops V (Proc.devRef .tc main_arg5) = V (Proc.devRef .tc main_arg5) := by
  rw [ops_split, after_app, after_app, after_app, after_app, after_app, after_app,
    stretch7_arg5, stretch6_arg5, stretch5_arg5, stretch4_arg5, stretch3_arg5, stretch2_arg5, stretch1_arg5]
theorem ops_arg6 (V : Valuation τ sig (Elt F)) :
    after ops V (Proc.devRef .tc main_arg6) = V (Proc.devRef .tc main_arg6) := by
  rw [ops_split, after_app, after_app, after_app, after_app, after_app, after_app,
    stretch7_arg6, stretch6_arg6, stretch5_arg6, stretch4_arg6, stretch3_arg6, stretch2_arg6, stretch1_arg6]
theorem ops_arg7 (V : Valuation τ sig (Elt F)) :
    after ops V (Proc.devRef .tc main_arg7) = V (Proc.devRef .tc main_arg7) := by
  rw [ops_split, after_app, after_app, after_app, after_app, after_app, after_app,
    stretch7_arg7, stretch6_arg7, stretch5_arg7, stretch4_arg7, stretch3_arg7, stretch2_arg7, stretch1_arg7]
theorem ops_arg8 (V : Valuation τ sig (Elt F)) :
    after ops V (Proc.devRef .tc main_arg8) = V (Proc.devRef .tc main_arg8) := by
  rw [ops_split, after_app, after_app, after_app, after_app, after_app, after_app,
    stretch7_arg8, stretch6_arg8, stretch5_arg8, stretch4_arg8, stretch3_arg8, stretch2_arg8, stretch1_arg8]
theorem ops_arg9 (V : Valuation τ sig (Elt F)) :
    after ops V (Proc.devRef .tc main_arg9) = V (Proc.devRef .tc main_arg9) := by
  rw [ops_split, after_app, after_app, after_app, after_app, after_app, after_app,
    stretch7_arg9, stretch6_arg9, stretch5_arg9, stretch4_arg9, stretch3_arg9, stretch2_arg9, stretch1_arg9]
theorem ops_arg10 (V : Valuation τ sig (Elt F)) :
    after ops V (Proc.devRef .tc main_arg10) = V (Proc.devRef .tc main_arg10) := by
  rw [ops_split, after_app, after_app, after_app, after_app, after_app, after_app,
    stretch7_arg10, stretch6_arg10, stretch5_arg10, stretch4_arg10, stretch3_arg10, stretch2_arg10, stretch1_arg10]

/-- From any contents `V`, the whole line leaves in the result buffer the stages composed at what `V` holds in the
    arguments' buffers. -/
theorem ops_res (V : Valuation τ sig (Elt F)) :
    after ops V (Proc.devRef .tc main_v56)
      = lsm (spmm40 (V (Proc.devRef .tc main_arg1)) (V (Proc.devRef .tc main_arg2)) (V (Proc.devRef .tc main_arg3))
            (dense3 (spmm128 (V (Proc.devRef .tc main_arg1)) (V (Proc.devRef .tc main_arg2)) (V (Proc.devRef .tc main_arg3))
                      (dense2 (spmm128 (V (Proc.devRef .tc main_arg1)) (V (Proc.devRef .tc main_arg2)) (V (Proc.devRef .tc main_arg3))
                                (dense1 (V (Proc.devRef .tc main_arg0)) (V (Proc.devRef .tc main_arg4))))
                        (V (Proc.devRef .tc main_arg0)) (V (Proc.devRef .tc main_arg5)) (V (Proc.devRef .tc main_arg10)) (V (Proc.devRef .tc main_arg6))))
              (V (Proc.devRef .tc main_arg0)) (V (Proc.devRef .tc main_arg7)) (V (Proc.devRef .tc main_arg10)) (V (Proc.devRef .tc main_arg8))))
          (V (Proc.devRef .tc main_arg9)) := by
  rw [ops_split, after_app, after_app, after_app, after_app, after_app, after_app,
    stretch7_res, stretch6_res, stretch5_res, stretch4_res, stretch3_res, stretch2_res, stretch1_res]
  rw [
    stretch6_arg9,
    stretch5_arg9, stretch5_arg1, stretch5_arg2, stretch5_arg3,
    stretch4_arg9, stretch4_arg1, stretch4_arg2, stretch4_arg3, stretch4_arg0, stretch4_arg7, stretch4_arg10, stretch4_arg8,
    stretch3_arg9, stretch3_arg1, stretch3_arg2, stretch3_arg3, stretch3_arg0, stretch3_arg7, stretch3_arg10, stretch3_arg8,
    stretch2_arg9, stretch2_arg1, stretch2_arg2, stretch2_arg3, stretch2_arg0, stretch2_arg7, stretch2_arg10, stretch2_arg8, stretch2_arg5, stretch2_arg6,
    stretch1_arg9, stretch1_arg1, stretch1_arg2, stretch1_arg3, stretch1_arg0, stretch1_arg7, stretch1_arg10, stretch1_arg8, stretch1_arg5, stretch1_arg6]

variable (m : (ℓ : Loc nD τ sig) → Buf (Elt F) ℓ) (ρ : Dev nD → PrngReg)

/-- The reference's result: the stages composed at the arguments' launch contents. -/
def result (c : Dev nD) : Buf (Elt F) ((c.tc : Thread nD τ).loc main_v56) :=
  lsm (spmm40 (m ((c.tc : Thread nD τ).loc main_arg1)) (m ((c.tc : Thread nD τ).loc main_arg2)) (m ((c.tc : Thread nD τ).loc main_arg3))
        (dense3 (spmm128 (m ((c.tc : Thread nD τ).loc main_arg1)) (m ((c.tc : Thread nD τ).loc main_arg2)) (m ((c.tc : Thread nD τ).loc main_arg3))
                  (dense2 (spmm128 (m ((c.tc : Thread nD τ).loc main_arg1)) (m ((c.tc : Thread nD τ).loc main_arg2)) (m ((c.tc : Thread nD τ).loc main_arg3))
                            (dense1 (m ((c.tc : Thread nD τ).loc main_arg0)) (m ((c.tc : Thread nD τ).loc main_arg4))))
                    (m ((c.tc : Thread nD τ).loc main_arg0)) (m ((c.tc : Thread nD τ).loc main_arg5)) (m ((c.tc : Thread nD τ).loc main_arg10)) (m ((c.tc : Thread nD τ).loc main_arg6))))
          (m ((c.tc : Thread nD τ).loc main_arg0)) (m ((c.tc : Thread nD τ).loc main_arg7)) (m ((c.tc : Thread nD τ).loc main_arg10)) (m ((c.tc : Thread nD τ).loc main_arg8))))
    (m ((c.tc : Thread nD τ).loc main_arg9))

/-- Every weakly fair execution of the reference terminates with the result at the stages' composition and the arguments
    unchanged. -/
theorem run : θ_run defs (onTc (τ := τ) (main (F := F))) ⟨m, fun _ => 0, ρ⟩ fun r => ∀ c : Dev nD,
      r.2.mem ((c.tc : Thread nD τ).loc main_v56) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  exact (θ_run defs _ _).mono (fun _ h c =>
      ⟨(h c main_v56).trans ((ops_res (launchContents m c)).trans (by unfold result; rfl)),
        (h c main_arg0).trans (ops_arg0 (launchContents m c)),
        (h c main_arg1).trans (ops_arg1 (launchContents m c)),
        (h c main_arg2).trans (ops_arg2 (launchContents m c)),
        (h c main_arg3).trans (ops_arg3 (launchContents m c)),
        (h c main_arg4).trans (ops_arg4 (launchContents m c)),
        (h c main_arg5).trans (ops_arg5 (launchContents m c)),
        (h c main_arg6).trans (ops_arg6 (launchContents m c)),
        (h c main_arg7).trans (ops_arg7 (launchContents m c)),
        (h c main_arg8).trans (ops_arg8 (launchContents m c)),
        (h c main_arg9).trans (ops_arg9 (launchContents m c)),
        (h c main_arg10).trans (ops_arg10 (launchContents m c))⟩)
    (run_seq scopedRefs_eq scopedSems_eq defs main (fun _ => ops) main_eq (fun _ => ops_sub) m ρ)

end Cert.ReferenceIdeal.RunH

end
-- ==== Proof.Spec.lean ====
/-
  The mathematics both programs compute, one row at a time.

  Every dense stage of the network acts on the rows of its row-tiled operands independently: an output row is a function
  of the same row of each operand and of the small weight matrices. So each stage is written here once as a function of
  ROWS (`Fin C → EReal`), and lifted to matrices of any number of rows `R`: a kernel block (2000 rows) and the whole
  array (50000 rows) are then the same function at two values of `R`, and a block of the whole array's result is the
  result on the block (`*_block`).

  Stage 1: x · W1.  Stage 2: ((relu (h + b) ‖ x) · C) · W.  Stage 3: (((h + b) ‖ x) · C) · W.
  Stage 4: log-softmax of (h + b) along a row of 40 entries, in the shifted form (v − M) − log Σ exp (v − M), M the
  row's maximum folded from the accumulator −∞.
-/
import Idealize.ShloMosaic.PureOps.Ideal.Laws
import Idealize.ShloMosaic.Lib.ValueIdx

noncomputable section

namespace Cert.Gcn

open Idealize.ShloMosaic Idealize.ShloMosaic.ValueIdx

/-- An R × C matrix of extended reals. -/
abbrev Mat (R C : Nat) : Type := FVec Ideal ⟨2, ![R, C]⟩ .f32

/-- Row `r` of a matrix. -/
def rowOf {R C : Nat} (X : Mat R C) (r : Fin R) : Fin C → EReal := fun k => X (ix2 r k)

/-- Entry `q` of a row times a matrix: Σ_k xr k · W (k, q). -/
def rowDot {K P : Nat} (xr : Fin K → EReal) (W : Mat K P) (q : Fin P) : EReal :=
  ∑ k : Fin K, xr k * W (ix2 k q)

/-- A row of 128 entries followed by another row of 128 entries. -/
def catRow (a b : Fin 128 → EReal) (j : Fin 256) : EReal :=
  if h : j.val < 128 then a ⟨j.val, h⟩ else b ⟨j.val - 128, by omega⟩

/-- Stage 2 on a row: ((relu (h + b) ‖ x) · C) · W at entry `q`. The zero that relu compares with is kept as `z`. -/
def row2 (z : EReal) (hr xr b : Fin 128 → EReal) (Cm : Mat 256 128) (W : Mat 128 128) (q : Fin 128) : EReal :=
  rowDot (fun k => rowDot (catRow (fun j => max (hr j + b j) z) xr) Cm k) W q

/-- Stage 3 on a row: (((h + b) ‖ x) · C) · W at entry `q`. -/
def row3 (hr xr b : Fin 128 → EReal) (Cm : Mat 256 128) (W : Mat 128 40) (q : Fin 40) : EReal :=
  rowDot (fun k => rowDot (catRow (fun j => hr j + b j) xr) Cm k) W q

/-- The maximum of the row h + b, folded from the accumulator `ninf` (the pattern of −∞). -/
def rowMax (ninf : EReal) (hr b : Fin 40 → EReal) : EReal :=
  (Finset.univ : Finset (Fin 40)).fold max ninf (fun j => hr j + b j)

/-- Stage 4 on a row: the shifted log-softmax of h + b at entry `q`. -/
def row4 (ninf : EReal) (hr b : Fin 40 → EReal) (q : Fin 40) : EReal :=
  (hr q + b q - rowMax ninf hr b) - Ideal.log (∑ j : Fin 40, Ideal.exp (hr j + b j - rowMax ninf hr b))

/-- Stage 1 on a matrix of any number of rows. -/
def G1 {R : Nat} (X : Mat R 128) (W : Mat 128 128) : Mat R 128 := fun i => rowDot (rowOf X (i 0)) W (i 1)

/-- Stage 2 on matrices of any number of rows. -/
def G2 {R : Nat} (z : EReal) (H X : Mat R 128) (b : Fin 128 → EReal) (Cm : Mat 256 128) (W : Mat 128 128) : Mat R 128 :=
  fun i => row2 z (rowOf H (i 0)) (rowOf X (i 0)) b Cm W (i 1)

/-- Stage 3 on matrices of any number of rows. -/
def G3 {R : Nat} (H X : Mat R 128) (b : Fin 128 → EReal) (Cm : Mat 256 128) (W : Mat 128 40) : Mat R 40 :=
  fun i => row3 (rowOf H (i 0)) (rowOf X (i 0)) b Cm W (i 1)

/-- Stage 4 on a matrix of any number of rows. -/
def G4 {R : Nat} (ninf : EReal) (H : Mat R 40) (b : Fin 40 → EReal) : Mat R 40 :=
  fun i => row4 ninf (rowOf H (i 0)) b (i 1)

/-! ## A block of rows of the result is the result on the block of rows

`e : S'.Idx → S.Idx` below is the embedding of a block's indices into the whole array's; all that is used of it is that
it keeps the column and sends a block's row `p` to one row `ρ p` of the whole array. -/

/-- Rows `ρ p` of `X` gathered into a matrix of `R'` rows. -/
def takeRows {R R' C : Nat} (X : Mat R C) (ρ : Fin R' → Fin R) : Mat R' C := fun y => X (ix2 (ρ (y 0)) (y 1))

theorem rowOf_takeRows {R R' C : Nat} (X : Mat R C) (ρ : Fin R' → Fin R) (p : Fin R') :
    rowOf (takeRows X ρ) p = rowOf X (ρ p) := rfl

theorem G1_block {R R' : Nat} (X : Mat R 128) (W : Mat 128 128) (ρ : Fin R' → Fin R) :
    takeRows (G1 X W) ρ = G1 (takeRows X ρ) W := rfl

theorem G2_block {R R' : Nat} (z : EReal) (H X : Mat R 128) (b : Fin 128 → EReal) (Cm : Mat 256 128) (W : Mat 128 128)
    (ρ : Fin R' → Fin R) : takeRows (G2 z H X b Cm W) ρ = G2 z (takeRows H ρ) (takeRows X ρ) b Cm W := rfl

theorem G3_block {R R' : Nat} (H X : Mat R 128) (b : Fin 128 → EReal) (Cm : Mat 256 128) (W : Mat 128 40)
    (ρ : Fin R' → Fin R) : takeRows (G3 H X b Cm W) ρ = G3 (takeRows H ρ) (takeRows X ρ) b Cm W := rfl

theorem G4_block {R R' : Nat} (ninf : EReal) (H : Mat R 40) (b : Fin 40 → EReal) (ρ : Fin R' → Fin R) :
    takeRows (G4 ninf H b) ρ = G4 ninf (takeRows H ρ) b := rfl

end Cert.Gcn

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Region0.lean ====
/-
  The first kernel's result array: x · W1, row by row.

  The grid's 25 points each write back one block of 2000 rows; point t's block is rows 2000 t … 2000 t + 1999 of the
  result, computed from the same rows of x and the whole of W1. Stage 1 acts on rows independently, so a block of rows of
  the whole array's result is the result on the block of rows; the 25 blocks cover the array.
-/
import proofs.«125993_j55147380080825_1_alg».proof.Proof.Gen.KernelIdeal.Frame
import proofs.«125993_j55147380080825_1_alg».proof.Proof.Spec
import proofs.«125993_j55147380080825_1_alg».proof.Proof.LibPlainDot
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz0 : (![0, 0] : Fin 2 → Nat) = fun _ => 0 := funext fun a => by fin_cases a <;> rfl

/-- The first kernel's stored block is stage 1 on the block's rows: a plain 2000 × 128 by 128 × 128 product into zeros. -/
theorem pay0_eq (x0 : Vec Ideal S2000x128 .f32) (x1 : Vec Ideal S128x128 .f32) :
    k0_pay1 (F := Ideal) x0 x1 = G1 x0 x1 := by
  funext i
  obtain ⟨p, q, rfl⟩ : ∃ (p : Fin 2000) (q : Fin 128), i = ix2 p q := ⟨i 0, i 1, eq_ix2 i⟩
  exact PlainDot.matmul_zero_apply 2000 128 128 (truncf .bf16 x0 bitsLt_bf16_f32) (truncf .bf16 x1 bitsLt_bf16_f32) p q

/-- Where point t's row-tiled blocks sit: block index (t, 0) for x and for the result, (0, 0) for W1. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 2000 t + p of the array. -/
def rho0 (t : Fin cfg0.N) (p : Fin 2000) : Fin 50000 :=
  ⟨t.val * 2000 + p.val, by have h : t.val < 25 := (show cfg0.N = 25 from N_0) ▸ t.isLt; have := p.isLt; omega⟩

theorem iblk0_0 (c : Dev nD) (t : Fin cfg0.N) : (iblk0 V c 0 t : Vec Ideal S2000x128 .f32) = takeRows (V c main_arg0 : Mat 50000 128) (rho0 t) := by
  obtain ⟨e0, e1, -, -, -, -⟩ := idx0 t
  funext y
  unfold iblk0
  rw [View.read_apply]
  show V c main_arg0 _ = V c main_arg0 _
  congr 1
  funext a
  apply Fin.ext
  match a with
  | ⟨0, _⟩ => show win0_0.index t 0 * 2000 + 1 * (y 0).val = t.val * 2000 + (y 0).val; rw [e0]; omega
  | ⟨1, _⟩ => show win0_0.index t 1 * 128 + 1 * (y 1).val = (y 1).val; rw [e1]; omega

theorem iblk0_1 (c : Dev nD) (t : Fin cfg0.N) : (iblk0 V c 1 t : Vec Ideal S128x128 .f32) = (V c main_arg4 : Mat 128 128) := by
  obtain ⟨-, -, e0, e1, -, -⟩ := idx0 t
  funext y
  unfold iblk0
  rw [View.read_apply]
  show V c main_arg4 _ = V c main_arg4 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

theorem oblk0 (t : Fin cfg0.N) (Z : Mat 50000 128) : ((cfg0.win 2).blk t).view.read (Elt Ideal) Z = takeRows Z (rho0 t) := by
  obtain ⟨-, -, -, -, e0, e1⟩ := idx0 t
  funext y
  rw [View.read_apply]
  refine congrArg Z ?_
  funext a
  apply Fin.ext
  match a with
  | ⟨0, _⟩ => show win0_2.index t 0 * 2000 + 1 * (y 0).val = t.val * 2000 + (y 0).val; rw [e0]; omega
  | ⟨1, _⟩ => show win0_2.index t 1 * 128 + 1 * (y 1).val = (y 1).val; rw [e1]; omega

/-- What point t writes back is block t of stage 1 of the arrays the kernel finds. -/
theorem flushed0_eq (c : Dev nD) (t : Fin cfg0.N) :
    (dat0 V c).flushed 2 t = ((cfg0.win 2).blk t).view.read (Elt Ideal) (G1 (V c main_arg0) (V c main_arg4)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x128) hz0]
  rw [pay0_eq, iblk0_0, iblk0_1, oblk0, G1_block]
  rfl

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The result array after the first kernel is stage 1 of the arrays it finds: row r is covered by point r / 2000. -/
theorem region0_value (c : Dev nD) : (dat0 V c).arrAt 2 cfg0.N = G1 (V c main_arg0) (V c main_arg4) :=
  (dat0 V c).arrAt_eq_of_cover 2 (G1 (V c main_arg0) (V c main_arg4)) (fun t _ => flushed0_eq V c t) fun i => by
    have hi0 : (i 0).val < 50000 := (i 0).isLt
    have hi1 : (i 1).val < 128 := (i 1).isLt
    have hN : cfg0.N = 25 := N_0
    let t : Fin cfg0.N := ⟨(i 0).val / 2000, by rw [hN]; omega⟩
    obtain ⟨-, -, -, -, e0, e1⟩ := idx0 t
    refine ⟨t, flush0_2 t, ?_⟩
    rw [mem_blk0]
    intro a
    match a with
    | ⟨0, _⟩ =>
      show win0_2.index t 0 * 2000 ≤ (i 0).val ∧ (i 0).val < win0_2.index t 0 * 2000 + 2000
      rw [e0]; show (i 0).val / 2000 * 2000 ≤ (i 0).val ∧ (i 0).val < (i 0).val / 2000 * 2000 + 2000; omega
    | ⟨1, _⟩ =>
      show win0_2.index t 1 * 128 ≤ (i 1).val ∧ (i 1).val < win0_2.index t 1 * 128 + 128
      rw [e1]; omega

end Cert.KernelIdeal.Regions

end
-- ==== Proof.Stage23.lean ====
/-
  Stages 2 and 3 as functions of rows: the kernel's stored value on a block of 2000 rows, and the reference's host
  operations on the whole array of 50000 rows, are the row function of `Cert.Gcn` at their number of rows.
-/
import proofs.«125993_j55147380080825_1_alg».proof.Proof.Gen.KernelIdeal.Skeleton
import proofs.«125993_j55147380080825_1_alg».proof.Proof.Gen.ReferenceIdeal
import proofs.«125993_j55147380080825_1_alg».proof.Proof.Spec
import proofs.«125993_j55147380080825_1_alg».proof.Proof.LibPlainDot
import Idealize.ShloMosaic.Lib.Pipeline.Value
import Idealize.ShloMosaic.Lib.ValueLayout

noncomputable section

open Idealize.ShloMosaic Idealize.ShloMosaic.ValueIdx

namespace Cert.Stage23Aux

open Idealize.ShloMosaic Idealize.ShloMosaic.ValueIdx Cert.Gcn

/-! ## The two products and the concatenation, read at an entry as the row functions -/

/-- A plain M×K by K×N product into the zero array, at entry (p, q), is row p of the left operand times the right
    operand at q. -/
theorem matmul_zero_rowDot {φ₁ φ₂ : FTy} (M K N : Nat) (A : FVec Ideal ⟨2, ![M, K]⟩ φ₁) (B : FVec Ideal ⟨2, ![K, N]⟩ φ₂)
    (p : Fin M) (q : Fin N) :
    FloatOps.matmul (DotDims.plain M K N) none A B (constant ⟨2, ![M, N]⟩ .f32 0x00000000#32) (ix2 p q)
      = rowDot (fun k => A (ix2 p k)) B q :=
  PlainDot.matmul_zero_apply M K N A B p q

/-- The host's plain M×K by K×N product, at entry (p, q), is the same sum: the operand indices at contraction index k
    are (p, k) and (k, q). -/
theorem hostDot_rowDot {φ₁ φ₂ : FTy} (M K N : Nat) (A : FVec Ideal ⟨2, ![M, K]⟩ φ₁) (B : FVec Ideal ⟨2, ![K, N]⟩ φ₂)
    (p : Fin M) (q : Fin N) :
    Host.dotGeneral (DotDims.plain M K N) none A B (ix2 p q) = rowDot (fun k => A (ix2 p k)) B q := by
  show FloatOps.dotGeneral (DotDims.plain M K N) none .single A B (ix2 p q) = ∑ k : Fin K, A (ix2 p k) * B (ix2 k q)
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact PlainDot.lhs_row M K N _ _
      | ⟨1, _⟩ => exact (PlainDot.lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (PlainDot.rhs_row M K N _ _).trans hk
      | ⟨1, _⟩ => exact PlainDot.rhs_col M K N _ _)
  rw [el, er]

/-- Two R × 128 arrays set side by side, read at (r, j), are row r of the first followed by row r of the second. -/
theorem concat_cols_apply {R : Nat} (A B : (⟨2, ![R, 128]⟩ : Shape).Idx → EReal)
    (h : Shape.Concatenates [(⟨2, ![R, 128]⟩ : Shape), ⟨2, ![R, 128]⟩] ⟨2, ![R, 256]⟩ 1) (r : Fin R) (j : Fin 256) :
    concatenate (⟨2, ![R, 256]⟩ : Shape) 1 [⟨⟨2, ![R, 128]⟩, A⟩, ⟨⟨2, ![R, 128]⟩, B⟩] h (ix2 r j)
      = catRow (fun k => A (ix2 r k)) (fun k => B (ix2 r k)) j := by
  unfold catRow
  by_cases hj : j.val < 128
  · rw [dif_pos hj]
    exact concatenate_pair_apply_left 1 A B h (ix2 r j) rfl (ix2 r ⟨j.val, hj⟩) (fun b => by
      match b with
      | ⟨0, _⟩ => rfl
      | ⟨1, _⟩ => rfl)
  · rw [dif_neg hj]
    exact concatenate_pair_apply_right 1 A B h (ix2 r j) rfl rfl (ix2 r ⟨j.val - 128, by omega⟩) (fun b hb => by
      match b with
      | ⟨0, _⟩ => rfl
      | ⟨1, _⟩ => exact absurd rfl hb) (by
      show (j.val - 128) + 128 = j.val
      omega)

end Cert.Stage23Aux

namespace Cert.KernelIdeal.Stage

open Cert.KernelIdeal Cert.KernelIdeal.Gen

/-- The bias row broadcast down the rows, read at (p, j), is the row's entry j. -/
theorem bias23_apply (x2 : Vec Ideal S1x128 .f32) (p : Fin 2000) (j : Fin 128) :
    broadcastTo S2000x128 (shapeCast S1x128 x2 shapeCasts_S1x128_S1x128) broadcasts_S1x128_S2000x128 (ix2 p j)
      = x2 (ix2 0 j) := by
  rw [shapeCast_self]
  exact broadcastTo_apply x2 broadcasts_S1x128_S2000x128 (ix2 p j) (ix2 0 j) (fun a => by
    match a with
    | ⟨0, _⟩ => rfl
    | ⟨1, _⟩ => rfl)

/-- The second kernel's stored block is stage 2 on the block's rows; the bias enters as the one row of a 1 × 128 array. -/
theorem pay1_eq (x0 : Vec Ideal S2000x128 .f32) (x2 : Vec Ideal S1x128 .f32) (x8 : Vec Ideal S2000x128 .f32)
    (x11 : Vec Ideal S256x128 .f32) (x15 : Vec Ideal S128x128 .f32) :
    k1_pay1 (F := Ideal) x0 x2 x8 x11 x15
      = Cert.Gcn.G2 (Ideal.ofBits .f32 0x00000000#32) x0 x8 (fun k => x2 (ix2 0 k)) x11 x15 := by
  funext i
  obtain ⟨p, q, rfl⟩ : ∃ (p : Fin 2000) (q : Fin 128), i = ix2 p q := ⟨i 0, i 1, eq_ix2 i⟩
  unfold k1_pay1
  refine (Cert.Stage23Aux.matmul_zero_rowDot 2000 128 128 _ _ p q).trans ?_
  show Cert.Gcn.rowDot _ x15 q = Cert.Gcn.rowDot _ x15 q
  refine congrArg (fun f => Cert.Gcn.rowDot f x15 q) (funext fun k => ?_)
  refine (Cert.Stage23Aux.matmul_zero_rowDot 2000 256 128 _ _ p k).trans ?_
  show Cert.Gcn.rowDot _ x11 k = Cert.Gcn.rowDot _ x11 k
  refine congrArg (fun f => Cert.Gcn.rowDot f x11 k) (funext fun j => ?_)
  refine (Cert.Stage23Aux.concat_cols_apply _ _ concatenates_S2000x128_S2000x128_S2000x256_d1 p j).trans ?_
  refine congrArg (fun f => Cert.Gcn.catRow f (fun k => x8 (ix2 p k)) j) (funext fun m => ?_)
  rw [maximumf_apply, addf_apply, shapeCast_self x0, bias23_apply]
  rfl

/-- The third kernel's stored block is stage 3 on the block's rows. -/
theorem pay2_eq (x0 : Vec Ideal S2000x128 .f32) (x2 : Vec Ideal S1x128 .f32) (x6 : Vec Ideal S2000x128 .f32)
    (x9 : Vec Ideal S256x128 .f32) (x13 : Vec Ideal S128x40 .f32) :
    k2_pay1 (F := Ideal) x0 x2 x6 x9 x13
      = Cert.Gcn.G3 x0 x6 (fun k => x2 (ix2 0 k)) x9 x13 := by
  funext i
  obtain ⟨p, q, rfl⟩ : ∃ (p : Fin 2000) (q : Fin 40), i = ix2 p q := ⟨i 0, i 1, eq_ix2 i⟩
  unfold k2_pay1
  refine (Cert.Stage23Aux.matmul_zero_rowDot 2000 128 40 _ _ p q).trans ?_
  show Cert.Gcn.rowDot _ x13 q = Cert.Gcn.rowDot _ x13 q
  refine congrArg (fun f => Cert.Gcn.rowDot f x13 q) (funext fun k => ?_)
  refine (Cert.Stage23Aux.matmul_zero_rowDot 2000 256 128 _ _ p k).trans ?_
  show Cert.Gcn.rowDot _ x9 k = Cert.Gcn.rowDot _ x9 k
  refine congrArg (fun f => Cert.Gcn.rowDot f x9 k) (funext fun j => ?_)
  refine (Cert.Stage23Aux.concat_cols_apply _ _ concatenates_S2000x128_S2000x128_S2000x256_d1 p j).trans ?_
  refine congrArg (fun f => Cert.Gcn.catRow f (fun k => x6 (ix2 p k)) j) (funext fun m => ?_)
  rw [addf_apply, shapeCast_self x0, bias23_apply]
  rfl

end Cert.KernelIdeal.Stage

namespace Cert.ReferenceIdeal.Stage

open Cert.ReferenceIdeal Cert.ReferenceIdeal.Gen

/-- The bias broadcast to one row and then down the rows, read at (r, j), is the bias's entry j. -/
theorem bias23_apply (b : FVec Ideal S128 .f32) (r : Fin 50000) (j : Fin 128) :
    broadcastInDim S50000x128 ![0, 1] bcast_S1x128_S50000x128_0_1 (broadcastInDim S1x128 ![1] bcast_S128_S1x128_1 b) (ix2 r j)
      = b (ix1 j) := by
  refine (broadcastInDim_apply _ bcast_S1x128_S50000x128_0_1 _ (ix2 r j) (ix2 0 j) (fun a => by
    match a with
    | ⟨0, _⟩ => rfl
    | ⟨1, _⟩ => rfl)).trans ?_
  exact broadcastInDim_apply _ bcast_S128_S1x128_1 b (ix2 0 j) (ix1 j) (fun a => by
    match a with
    | ⟨0, _⟩ => rfl)

/-- The splat of the zero pattern, read at any entry, is the pattern's value. -/
theorem zero23_apply (i : S50000x128.Idx) :
    broadcastInDim S50000x128 ![] bcast_S_S50000x128 (constant (F := Ideal) S_ .f32 0x00000000#32) i
      = Ideal.ofBits .f32 0x00000000#32 := rfl

/-- The reference's second dense stage is stage 2 on the whole arrays' rows. -/
theorem ref2_eq (H X : FVec Ideal S50000x128 .f32) (b : FVec Ideal S128 .f32) (Cm : FVec Ideal S256x128 .f32) (W : FVec Ideal S128x128 .f32) :
    Host.dotGeneral dot_S50000x128_S128x128_S50000x128_1_0_0_1_n_n none
        (Host.dotGeneral dot_S50000x256_S256x128_S50000x128_1_0_0_1_n_n none
          (concatenate S50000x256 1 [⟨S50000x128, (maximumf (addf H (broadcastInDim S50000x128 ![0, 1] bcast_S1x128_S50000x128_0_1 (broadcastInDim S1x128 ![1] bcast_S128_S1x128_1 b))) (broadcastInDim S50000x128 ![] bcast_S_S50000x128 (constant S_ .f32 0x00000000#32)))⟩, ⟨S50000x128, X⟩] concatenates_S50000x128_S50000x128_S50000x256_d1) Cm) W
      = Cert.Gcn.G2 (Ideal.ofBits .f32 0x00000000#32) H X (fun k => b (ix1 k)) Cm W := by
  funext i
  obtain ⟨p, q, rfl⟩ : ∃ (p : Fin 50000) (q : Fin 128), i = ix2 p q := ⟨i 0, i 1, eq_ix2 i⟩
  refine (Cert.Stage23Aux.hostDot_rowDot 50000 128 128 _ _ p q).trans ?_
  show Cert.Gcn.rowDot _ W q = Cert.Gcn.rowDot _ W q
  refine congrArg (fun f => Cert.Gcn.rowDot f W q) (funext fun k => ?_)
  refine (Cert.Stage23Aux.hostDot_rowDot 50000 256 128 _ _ p k).trans ?_
  show Cert.Gcn.rowDot _ Cm k = Cert.Gcn.rowDot _ Cm k
  refine congrArg (fun f => Cert.Gcn.rowDot f Cm k) (funext fun j => ?_)
  refine (Cert.Stage23Aux.concat_cols_apply _ _ concatenates_S50000x128_S50000x128_S50000x256_d1 p j).trans ?_
  refine congrArg (fun f => Cert.Gcn.catRow f (fun k => X (ix2 p k)) j) (funext fun m => ?_)
  rw [maximumf_apply, addf_apply, bias23_apply, zero23_apply]
  rfl

/-- The reference's third dense stage is stage 3 on the whole arrays' rows. -/
theorem ref3_eq (H X : FVec Ideal S50000x128 .f32) (b : FVec Ideal S128 .f32) (Cm : FVec Ideal S256x128 .f32) (W : FVec Ideal S128x40 .f32) :
    Host.dotGeneral dot_S50000x128_S128x40_S50000x40_1_0_0_1_n_n none
        (Host.dotGeneral dot_S50000x256_S256x128_S50000x128_1_0_0_1_n_n none
          (concatenate S50000x256 1 [⟨S50000x128, (addf H (broadcastInDim S50000x128 ![0, 1] bcast_S1x128_S50000x128_0_1 (broadcastInDim S1x128 ![1] bcast_S128_S1x128_1 b)))⟩, ⟨S50000x128, X⟩] concatenates_S50000x128_S50000x128_S50000x256_d1) Cm) W
      = Cert.Gcn.G3 H X (fun k => b (ix1 k)) Cm W := by
  funext i
  obtain ⟨p, q, rfl⟩ : ∃ (p : Fin 50000) (q : Fin 40), i = ix2 p q := ⟨i 0, i 1, eq_ix2 i⟩
  refine (Cert.Stage23Aux.hostDot_rowDot 50000 128 40 _ _ p q).trans ?_
  show Cert.Gcn.rowDot _ W q = Cert.Gcn.rowDot _ W q
  refine congrArg (fun f => Cert.Gcn.rowDot f W q) (funext fun k => ?_)
  refine (Cert.Stage23Aux.hostDot_rowDot 50000 256 128 _ _ p k).trans ?_
  show Cert.Gcn.rowDot _ Cm k = Cert.Gcn.rowDot _ Cm k
  refine congrArg (fun f => Cert.Gcn.rowDot f Cm k) (funext fun j => ?_)
  refine (Cert.Stage23Aux.concat_cols_apply _ _ concatenates_S50000x128_S50000x128_S50000x256_d1 p j).trans ?_
  refine congrArg (fun f => Cert.Gcn.catRow f (fun k => X (ix2 p k)) j) (funext fun m => ?_)
  rw [addf_apply, bias23_apply]
  rfl

end Cert.ReferenceIdeal.Stage

end
-- ==== Proof.Region1.lean ====
/-
  The second kernel's result array: ((relu (h + b) ‖ x) · C) · W2, row by row.

  Point t of the 25 writes back rows 2000 t … 2000 t + 1999, computed from the same rows of h (the first sparse multiply's
  result) and of x, and from the whole of the bias row, the combiner C and W2. Stage 2 acts on rows independently, so a
  block of rows of the whole array's result is the result on the block of rows; the 25 blocks cover the array.
-/
import proofs.«125993_j55147380080825_1_alg».proof.Proof.Gen.KernelIdeal.Frame
import proofs.«125993_j55147380080825_1_alg».proof.Proof.Spec
import proofs.«125993_j55147380080825_1_alg».proof.Proof.Stage23
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz1 : (![0, 0] : Fin 2 → Nat) = fun _ => 0 := funext fun a => by fin_cases a <;> rfl

/-- Where point t's blocks sit: block index (t, 0) for the two row-tiled operands and the result, (0, 0) for the bias
    row, the combiner and W2. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 2000 t + p of the array. -/
def rho1 (t : Fin cfg1.N) (p : Fin 2000) : Fin 50000 :=
  ⟨t.val * 2000 + p.val, by have h : t.val < 25 := (show cfg1.N = 25 from N_1) ▸ t.isLt; have := p.isLt; omega⟩

theorem iblk1_0 (c : Dev nD) (t : Fin cfg1.N) : (iblk1 V c 0 t : Vec Ideal S2000x128 .f32) = takeRows (V c main_v13 : Mat 50000 128) (rho1 t) := by
  obtain ⟨e0, e1, -⟩ := idx1 t
  funext y
  unfold iblk1
  rw [View.read_apply]
  show V c main_v13 _ = V c main_v13 _
  congr 1
  funext a
  apply Fin.ext
  match a with
  | ⟨0, _⟩ => show win1_0.index t 0 * 2000 + 1 * (y 0).val = t.val * 2000 + (y 0).val; rw [e0]; omega
  | ⟨1, _⟩ => show win1_0.index t 1 * 128 + 1 * (y 1).val = (y 1).val; rw [e1]; omega

theorem iblk1_1 (c : Dev nD) (t : Fin cfg1.N) : (iblk1 V c 1 t : Vec Ideal S2000x128 .f32) = takeRows (V c main_arg0 : Mat 50000 128) (rho1 t) := by
  obtain ⟨-, -, e0, e1, -⟩ := idx1 t
  funext y
  unfold iblk1
  rw [View.read_apply]
  show V c main_arg0 _ = V c main_arg0 _
  congr 1
  funext a
  apply Fin.ext
  match a with
  | ⟨0, _⟩ => show win1_1.index t 0 * 2000 + 1 * (y 0).val = t.val * 2000 + (y 0).val; rw [e0]; omega
  | ⟨1, _⟩ => show win1_1.index t 1 * 128 + 1 * (y 1).val = (y 1).val; rw [e1]; omega

theorem iblk1_2 (c : Dev nD) (t : Fin cfg1.N) : (iblk1 V c 2 t : Vec Ideal S1x128 .f32) = (V c main_v14 : Mat 1 128) := by
  obtain ⟨-, -, -, -, e0, e1, -⟩ := idx1 t
  funext y
  unfold iblk1
  rw [View.read_apply]
  show V c main_v14 _ = V c main_v14 _
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

theorem iblk1_3 (c : Dev nD) (t : Fin cfg1.N) : (iblk1 V c 3 t : Vec Ideal S256x128 .f32) = (V c main_arg10 : Mat 256 128) := by
  obtain ⟨-, -, -, -, -, -, e0, e1, -⟩ := idx1 t
  funext y
  unfold iblk1
  rw [View.read_apply]
  show V c main_arg10 _ = V c main_arg10 _
  congr 1
  funext a
  apply Fin.ext
  match a with
  | ⟨0, _⟩ => show win1_3.index t 0 * 256 + 1 * (y 0).val = (y 0).val; rw [e0]; omega
  | ⟨1, _⟩ => show win1_3.index t 1 * 128 + 1 * (y 1).val = (y 1).val; rw [e1]; omega

theorem iblk1_4 (c : Dev nD) (t : Fin cfg1.N) : (iblk1 V c 4 t : Vec Ideal S128x128 .f32) = (V c main_arg6 : Mat 128 128) := by
  obtain ⟨-, -, -, -, -, -, -, -, e0, e1, -⟩ := idx1 t
  funext y
  unfold iblk1
  rw [View.read_apply]
  show V c main_arg6 _ = V c main_arg6 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

theorem oblk1 (t : Fin cfg1.N) (Z : Mat 50000 128) : ((cfg1.win 5).blk t).view.read (Elt Ideal) Z = takeRows Z (rho1 t) := by
  obtain ⟨-, -, -, -, -, -, -, -, -, -, e0, e1⟩ := idx1 t
  funext y
  rw [View.read_apply]
  refine congrArg Z ?_
  funext a
  apply Fin.ext
  match a with
  | ⟨0, _⟩ => show win1_5.index t 0 * 2000 + 1 * (y 0).val = t.val * 2000 + (y 0).val; rw [e0]; omega
  | ⟨1, _⟩ => show win1_5.index t 1 * 128 + 1 * (y 1).val = (y 1).val; rw [e1]; omega

/-- What point t writes back is block t of stage 2 of the arrays the kernel finds. -/
theorem flushed1_eq (c : Dev nD) (t : Fin cfg1.N) :
    (dat1 V c).flushed 5 t = ((cfg1.win 5).blk t).view.read (Elt Ideal)
      (G2 (Ideal.ofBits .f32 0x00000000#32) (V c main_v13) (V c main_arg0) (fun k => (V c main_v14 : Mat 1 128) (ix2 0 k)) (V c main_arg10) (V c main_arg6)) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S1x128) hz1, View.ld_unit_zero (S := S256x128) hz1, View.ld_unit_zero (S := S128x128) hz1]
  rw [Cert.KernelIdeal.Stage.pay1_eq, iblk1_0, iblk1_1, iblk1_2, iblk1_3, iblk1_4, oblk1, G2_block]
  rfl

/-- An index of the result array is in point t's block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v15).slice (win1_5.rect t)).set ↔ _
  rw [View.set_slice_whole, Rect.mem_set_unit]
  exact Iff.rfl

/-- The result array after the second kernel is stage 2 of the arrays it finds: row r is covered by point r / 2000. -/
theorem region1_value (c : Dev nD) : (dat1 V c).arrAt 5 cfg1.N
    = G2 (Ideal.ofBits .f32 0x00000000#32) (V c main_v13) (V c main_arg0) (fun k => (V c main_v14 : Mat 1 128) (ix2 0 k)) (V c main_arg10) (V c main_arg6) :=
  (dat1 V c).arrAt_eq_of_cover 5 _ (fun t _ => flushed1_eq V c t) fun i => by
    have hi0 : (i 0).val < 50000 := (i 0).isLt
    have hi1 : (i 1).val < 128 := (i 1).isLt
    have hN : cfg1.N = 25 := N_1
    let t : Fin cfg1.N := ⟨(i 0).val / 2000, by rw [hN]; omega⟩
    obtain ⟨-, -, -, -, -, -, -, -, -, -, e0, e1⟩ := idx1 t
    refine ⟨t, flush1_5 t, ?_⟩
    rw [mem_blk1]
    intro a
    match a with
    | ⟨0, _⟩ =>
      show win1_5.index t 0 * 2000 ≤ (i 0).val ∧ (i 0).val < win1_5.index t 0 * 2000 + 2000
      rw [e0]; show (i 0).val / 2000 * 2000 ≤ (i 0).val ∧ (i 0).val < (i 0).val / 2000 * 2000 + 2000; omega
    | ⟨1, _⟩ =>
      show win1_5.index t 1 * 128 ≤ (i 1).val ∧ (i 1).val < win1_5.index t 1 * 128 + 128
      rw [e1]; omega

end Cert.KernelIdeal.Regions

end
-- ==== Proof.Region2.lean ====
/-
  The third kernel's result array: (((h + b) ‖ x) · C) · W3, row by row.

  Point t of the 25 writes back rows 2000 t … 2000 t + 1999 (40 columns), computed from the same rows of h (the second
  sparse multiply's result) and of x, and from the whole of the bias row, the combiner C and W3. Stage 3 acts on rows
  independently, so a block of rows of the whole array's result is the result on the block of rows; the 25 blocks cover
  the array.
-/
import proofs.«125993_j55147380080825_1_alg».proof.Proof.Gen.KernelIdeal.Frame
import proofs.«125993_j55147380080825_1_alg».proof.Proof.Spec
import proofs.«125993_j55147380080825_1_alg».proof.Proof.Stage23
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- Where point t's blocks sit: block index (t, 0) for the two row-tiled operands and the result, (0, 0) for the bias
    row, the combiner and W3. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's block is row 2000 t + p of the array. -/
def rho2 (t : Fin cfg2.N) (p : Fin 2000) : Fin 50000 :=
  ⟨t.val * 2000 + p.val, by have h : t.val < 25 := (show cfg2.N = 25 from N_2) ▸ t.isLt; have := p.isLt; omega⟩

theorem iblk2_0 (c : Dev nD) (t : Fin cfg2.N) : (iblk2 V c 0 t : Vec Ideal S2000x128 .f32) = takeRows (V c main_v28 : Mat 50000 128) (rho2 t) := by
  obtain ⟨e0, e1, -⟩ := idx2 t
  funext y
  unfold iblk2
  rw [View.read_apply]
  show V c main_v28 _ = V c main_v28 _
  congr 1
  funext a
  apply Fin.ext
  match a with
  | ⟨0, _⟩ => show win2_0.index t 0 * 2000 + 1 * (y 0).val = t.val * 2000 + (y 0).val; rw [e0]; omega
  | ⟨1, _⟩ => show win2_0.index t 1 * 128 + 1 * (y 1).val = (y 1).val; rw [e1]; omega

theorem iblk2_1 (c : Dev nD) (t : Fin cfg2.N) : (iblk2 V c 1 t : Vec Ideal S2000x128 .f32) = takeRows (V c main_arg0 : Mat 50000 128) (rho2 t) := by
  obtain ⟨-, -, e0, e1, -⟩ := idx2 t
  funext y
  unfold iblk2
  rw [View.read_apply]
  show V c main_arg0 _ = V c main_arg0 _
  congr 1
  funext a
  apply Fin.ext
  match a with
  | ⟨0, _⟩ => show win2_1.index t 0 * 2000 + 1 * (y 0).val = t.val * 2000 + (y 0).val; rw [e0]; omega
  | ⟨1, _⟩ => show win2_1.index t 1 * 128 + 1 * (y 1).val = (y 1).val; rw [e1]; omega

theorem iblk2_2 (c : Dev nD) (t : Fin cfg2.N) : (iblk2 V c 2 t : Vec Ideal S1x128 .f32) = (V c main_v29 : Mat 1 128) := by
  obtain ⟨-, -, -, -, e0, e1, -⟩ := idx2 t
  funext y
  unfold iblk2
  rw [View.read_apply]
  show V c main_v29 _ = V c main_v29 _
  congr 1
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

theorem iblk2_3 (c : Dev nD) (t : Fin cfg2.N) : (iblk2 V c 3 t : Vec Ideal S256x128 .f32) = (V c main_arg10 : Mat 256 128) := by
  obtain ⟨-, -, -, -, -, -, e0, e1, -⟩ := idx2 t
  funext y
  unfold iblk2
  rw [View.read_apply]
  show V c main_arg10 _ = V c main_arg10 _
  congr 1
  funext a
  apply Fin.ext
  match a with
  | ⟨0, _⟩ => show win2_3.index t 0 * 256 + 1 * (y 0).val = (y 0).val; rw [e0]; omega
  | ⟨1, _⟩ => show win2_3.index t 1 * 128 + 1 * (y 1).val = (y 1).val; rw [e1]; omega

theorem iblk2_4 (c : Dev nD) (t : Fin cfg2.N) : (iblk2 V c 4 t : Vec Ideal S128x40 .f32) = (V c main_arg8 : Mat 128 40) := by
  obtain ⟨-, -, -, -, -, -, -, -, e0, e1, -⟩ := idx2 t
  funext y
  unfold iblk2
  rw [View.read_apply]
  show V c main_arg8 _ = V c main_arg8 _
  congr 1
  funext a
  apply Fin.ext
  match a with
  | ⟨0, _⟩ => show win2_4.index t 0 * 128 + 1 * (y 0).val = (y 0).val; rw [e0]; omega
  | ⟨1, _⟩ => show win2_4.index t 1 * 40 + 1 * (y 1).val = (y 1).val; rw [e1]; omega

theorem oblk2 (t : Fin cfg2.N) (Z : Mat 50000 40) : ((cfg2.win 5).blk t).view.read (Elt Ideal) Z = takeRows Z (rho2 t) := by
  obtain ⟨-, -, -, -, -, -, -, -, -, -, e0, e1⟩ := idx2 t
  funext y
  rw [View.read_apply]
  refine congrArg Z ?_
  funext a
  apply Fin.ext
  match a with
  | ⟨0, _⟩ => show win2_5.index t 0 * 2000 + 1 * (y 0).val = t.val * 2000 + (y 0).val; rw [e0]; omega
  | ⟨1, _⟩ => show win2_5.index t 1 * 40 + 1 * (y 1).val = (y 1).val; rw [e1]; omega

/-- What point t writes back is block t of stage 3 of the arrays the kernel finds. -/
theorem flushed2_eq (c : Dev nD) (t : Fin cfg2.N) :
    (dat2 V c).flushed 5 t = ((cfg2.win 5).blk t).view.read (Elt Ideal)
      (G3 (V c main_v28) (V c main_arg0) (fun k => (V c main_v29 : Mat 1 128) (ix2 0 k)) (V c main_arg10) (V c main_arg8)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S1x128) hz2, View.ld_unit_zero (S := S256x128) hz2, View.ld_unit_zero (S := S128x40) hz2]
  rw [Cert.KernelIdeal.Stage.pay2_eq, iblk2_0, iblk2_1, iblk2_2, iblk2_3, iblk2_4, oblk2, G3_block]
  rfl

/-- An index of the result array is in point t's block iff each coordinate is in the block's range on its axis. -/
theorem mem_blk2 (t : Fin cfg2.N) (i : S50000x40.Idx) :
    i ∈ ((cfg2.win 5).blk t).view.set ↔ ∀ a : Fin 2, win2_5.index t a * S2000x40.size a ≤ (i a).val ∧ (i a).val < win2_5.index t a * S2000x40.size a + S2000x40.size a := by
  show i ∈ ((View.whole main_v30).slice (win2_5.rect t)).set ↔ _
  rw [View.set_slice_whole, Rect.mem_set_unit]
  exact Iff.rfl

/-- The result array after the third kernel is stage 3 of the arrays it finds: row r is covered by point r / 2000. -/
theorem region2_value (c : Dev nD) : (dat2 V c).arrAt 5 cfg2.N
    = G3 (V c main_v28) (V c main_arg0) (fun k => (V c main_v29 : Mat 1 128) (ix2 0 k)) (V c main_arg10) (V c main_arg8) :=
  (dat2 V c).arrAt_eq_of_cover 5 _ (fun t _ => flushed2_eq V c t) fun i => by
    have hi0 : (i 0).val < 50000 := (i 0).isLt
    have hi1 : (i 1).val < 40 := (i 1).isLt
    have hN : cfg2.N = 25 := N_2
    let t : Fin cfg2.N := ⟨(i 0).val / 2000, by rw [hN]; omega⟩
    obtain ⟨-, -, -, -, -, -, -, -, -, -, e0, e1⟩ := idx2 t
    refine ⟨t, flush2_5 t, ?_⟩
    rw [mem_blk2]
    intro a
    match a with
    | ⟨0, _⟩ =>
      show win2_5.index t 0 * 2000 ≤ (i 0).val ∧ (i 0).val < win2_5.index t 0 * 2000 + 2000
      rw [e0]; show (i 0).val / 2000 * 2000 ≤ (i 0).val ∧ (i 0).val < (i 0).val / 2000 * 2000 + 2000; omega
    | ⟨1, _⟩ =>
      show win2_5.index t 1 * 40 ≤ (i 1).val ∧ (i 1).val < win2_5.index t 1 * 40 + 40
      rw [e1]; omega

end Cert.KernelIdeal.Regions

end
-- ==== Proof.Stage4.lean ====
/-
  Stage 4, the shifted log-softmax of a row of 40 entries plus a bias, as a function of rows: the last kernel's stored
  value on a block of 2000 rows, and the reference's host operations on the whole array of 50000 rows, are the row
  function of `Cert.Gcn` at their number of rows.
-/
import proofs.«125993_j55147380080825_1_alg».proof.Proof.Gen.KernelIdeal.Skeleton
import proofs.«125993_j55147380080825_1_alg».proof.Proof.Gen.ReferenceIdeal
import proofs.«125993_j55147380080825_1_alg».proof.Proof.Spec
import Idealize.ShloMosaic.Lib.Pipeline.Value
import Idealize.ShloMosaic.Lib.ValueLayout

noncomputable section

open Idealize.ShloMosaic Idealize.ShloMosaic.ValueIdx

/-! ## Layout operations and one-axis reductions of a matrix, read at an index given by coordinates -/

namespace Cert.Stage4Aux

variable {α : Type}

/-- An `[a]` array cast to `[a, 1]` reads, at `(p, u)`, the operand at `p`, whatever the unit coordinate `u`:
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a matrix over row `p` of the column-reduced vector with column `k` inserted is `(p, k)`. -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A maximum reduction along the rows of a matrix at row `p`: the fold of `max` from the accumulator's value over the
    row's entries. -/
theorem multiReduction_max_row {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  exact Finset.fold_congr fun k _ => congrArg src (lift_row h p k)

/-- A sum reduction along the rows of a matrix at row `p`: the sum of the row's entries. -/
theorem multiReduction_add_row {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_row h p k)

/-- The shifted log-softmax a kernel block computes from a matrix `V` whose entry `(r, k)` is `W r k`, read at `(p, q)`:
    with `M` the row's maximum folded from the accumulator's value, `(W p q − M) − log Σ_k exp (W p k − M)`. -/
theorem logSoftmax_block {a b : ℕ} (V : FVec Ideal ⟨2, ![a, b]⟩ .f32) (accm acca : BitVec 32)
    (hred : (⟨2, ![a, b]⟩ : Shape).Reduces [1] ⟨1, ![a]⟩) (hφ : FKind.Formats .f32)
    (haccm : accm = FKind.maximumf.neutral .f32 hφ) (hacca : acca = FKind.add.neutral .f32 hφ)
    (hcast : (⟨1, ![a]⟩ : Shape).ShapeCasts ⟨2, ![a, 1]⟩) (hb : (⟨2, ![a, 1]⟩ : Shape).Broadcasts ⟨2, ![a, b]⟩)
    (W : Fin a → Fin b → EReal) (hV : ∀ r k, V (ix2 r k) = W r k) (p : Fin a) (q : Fin b) :
    subf (subf V (broadcastTo ⟨2, ![a, b]⟩ (shapeCast ⟨2, ![a, 1]⟩ (multiReduction .maximumf [1] ⟨1, ![a]⟩ V accm hred hφ haccm) hcast) hb))
        (broadcastTo ⟨2, ![a, b]⟩ (log (shapeCast ⟨2, ![a, 1]⟩
          (multiReduction .add [1] ⟨1, ![a]⟩
            (exp (subf V (broadcastTo ⟨2, ![a, b]⟩ (shapeCast ⟨2, ![a, 1]⟩ (multiReduction .maximumf [1] ⟨1, ![a]⟩ V accm hred hφ haccm) hcast) hb)))
            acca hred hφ hacca) hcast)) hb) (ix2 p q)
      = (W p q - (Finset.univ : Finset (Fin b)).fold max (Ideal.ofBits .f32 accm) (fun k => W p k))
        - Ideal.log (∑ k : Fin b, Ideal.exp (W p k
            - (Finset.univ : Finset (Fin b)).fold max (Ideal.ofBits .f32 accm) (fun k => W p k))) := by
  have hM : ∀ c : Fin b,
      broadcastTo ⟨2, ![a, b]⟩ (shapeCast ⟨2, ![a, 1]⟩ (multiReduction .maximumf [1] ⟨1, ![a]⟩ V accm hred hφ haccm) hcast) hb (ix2 p c)
        = (Finset.univ : Finset (Fin b)).fold max (Ideal.ofBits .f32 accm) (fun k => W p k) := fun c =>
    (broadcastTo_a1_ab_apply _ hb p c).trans
      ((shapeCast_a_a1_apply _ hcast p 0).trans
        ((multiReduction_max_row V accm hred hφ haccm p).trans (Finset.fold_congr fun k _ => hV p k)))
  have hS : shapeCast ⟨2, ![a, 1]⟩ (multiReduction .add [1] ⟨1, ![a]⟩
            (exp (subf V (broadcastTo ⟨2, ![a, b]⟩ (shapeCast ⟨2, ![a, 1]⟩ (multiReduction .maximumf [1] ⟨1, ![a]⟩ V accm hred hφ haccm) hcast) hb)))
            acca hred hφ hacca) hcast (ix2 p (0 : Fin 1))
        = ∑ k : Fin b, Ideal.exp (W p k
            - (Finset.univ : Finset (Fin b)).fold max (Ideal.ofBits .f32 accm) (fun k => W p k)) := by
    refine (shapeCast_a_a1_apply _ hcast p 0).trans ?_
    refine (multiReduction_add_row _ acca hred hφ hacca p).trans ?_
    refine Finset.sum_congr rfl fun k _ => ?_
    show Ideal.exp (V (ix2 p k) - _) = _
    rw [hM k, hV p k]
  rw [subf_apply, subf_apply, hM q, hV p q, broadcastTo_a1_ab_apply _ hb p q]
  show _ - Ideal.log _ = _
  rw [hS]

/-! ## The host's broadcasts and one-axis reductions of a matrix, read at an index given by coordinates -/

/-- A `[b]` array placed along axis 1 of `[1, b]` reads, at `(u, k)`, the operand at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply _ h x (ix2 u k) (ix1 k) fun ax => ?_
  match ax with
  | ⟨0, _⟩ =>
    show k.val = if b = 1 then 0 else k.val
    split
    · have := k.isLt; omega
    · rfl

/-- A `[1, b]` array broadcast to `[a, b]` reads, at `(p, k)`, the operand's one row at `k`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply _ h x (ix2 p k) (ix2 (0 : Fin 1) k) fun ax => ?_
  match ax with
  | ⟨0, _⟩ => rfl
  | ⟨1, _⟩ =>
    show k.val = if b = 1 then 0 else k.val
    split
    · have := k.isLt; omega
    · rfl

/-- An `[a]` array placed along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` array broadcast to `[a, b]` reads, at `(p, k)`, the operand's one entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (k : Fin b) :
    broadcastInDim ⟨2, ![a, b]⟩ ![0, 1] h x (ix2 p k) = x (ix2 p (0 : Fin 1)) := by
  refine broadcastInDim_apply _ h x (ix2 p k) (ix2 p (0 : Fin 1)) fun ax => ?_
  match ax with
  | ⟨0, _⟩ =>
    show p.val = if a = 1 then 0 else p.val
    split
    · have := p.isLt; omega
    · rfl
  | ⟨1, _⟩ => rfl

/-- A rank-zero array broadcast to `[a]` reads its one element everywhere. -/
theorem broadcastInDim_scalar_a_apply {a : ℕ} (x : (⟨0, ![]⟩ : Shape).Idx → α)
    (h : (⟨0, ![]⟩ : Shape).BroadcastsInDim ⟨1, ![a]⟩ ![]) (j : (⟨1, ![a]⟩ : Shape).Idx) (k : (⟨0, ![]⟩ : Shape).Idx) :
    broadcastInDim ⟨1, ![a]⟩ ![] h x j = x k :=
  broadcastInDim_apply _ h x j k fun ax => ax.elim0

/-- The host's maximum reduction along the rows of a matrix at row `p`: the fold of `max` from the initial value's
    element over the row's entries. -/
theorem hostReduce_max_row {a b : ℕ} {u : Shape} (X : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf X init h' hu (ix1 p)
      = (Finset.univ : Finset (Fin b)).fold max (init (Shape.Idx.first hu)) (fun k => X (ix2 p k)) := by
  refine (Host.reduce_eq_fold_single FloatOps.maximumf X init h' h hu (ix1 p)).trans ?_
  exact Finset.fold_congr fun k _ => congrArg X (lift_row h p k)

/-- The host's sum along the rows of a matrix at row `p`, from an initial value whose element is zero: the sum of the
    row's entries. -/
theorem hostReduceAdd_row {a b : ℕ} {u : Shape} (X : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (hz : init (Shape.Idx.first hu) = 0) (p : Fin a) :
    Host.reduceAdd X init h' hu (ix1 p) = ∑ k : Fin b, X (ix2 p k) := by
  refine (Ideal.hostReduceAdd_single h' h X (init (Shape.Idx.first hu)) (ix1 p)).trans ?_
  rw [hz, zero_add]
  exact Finset.sum_congr rfl fun k _ => congrArg X (lift_row h p k)

/-- The shifted log-softmax the host computes from a matrix `V` whose entry `(r, k)` is `W r k`, read at `(p, q)`: the
    row's maximum is folded from the initial value and then joined with that value once more, which changes nothing
    since the fold is at least its starting value; the sum starts from the zero pattern. -/
theorem logSoftmax_host {a b : ℕ} (V : FVec Ideal ⟨2, ![a, b]⟩ .f32) (accm : BitVec 32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (W : Fin a → Fin b → EReal) (hV : ∀ r k, V (ix2 r k) = W r k) (p : Fin a) (q : Fin b) :
    subf (subf V
          (broadcastInDim ⟨2, ![a, b]⟩ ![0, 1] hb2 (broadcastInDim ⟨2, ![a, 1]⟩ ![0] hb1
            (maximumf (broadcastInDim ⟨1, ![a]⟩ ![] hb0 (constant ⟨0, ![]⟩ .f32 accm))
              (Host.reduce FloatOps.maximumf V (constant ⟨0, ![]⟩ .f32 accm) h' hu)))))
        (broadcastInDim ⟨2, ![a, b]⟩ ![0, 1] hb2 (Host.log (broadcastInDim ⟨2, ![a, 1]⟩ ![0] hb1
          (Host.reduceAdd (Host.exp (subf V
              (broadcastInDim ⟨2, ![a, b]⟩ ![0, 1] hb2 (broadcastInDim ⟨2, ![a, 1]⟩ ![0] hb1
                (maximumf (broadcastInDim ⟨1, ![a]⟩ ![] hb0 (constant ⟨0, ![]⟩ .f32 accm))
                  (Host.reduce FloatOps.maximumf V (constant ⟨0, ![]⟩ .f32 accm) h' hu))))))
            (constant ⟨0, ![]⟩ .f32 0x00000000#32) h' hu)))) (ix2 p q)
      = (W p q - (Finset.univ : Finset (Fin b)).fold max (Ideal.ofBits .f32 accm) (fun k => W p k))
        - Ideal.log (∑ k : Fin b, Ideal.exp (W p k
            - (Finset.univ : Finset (Fin b)).fold max (Ideal.ofBits .f32 accm) (fun k => W p k))) := by
  have hM : ∀ c : Fin b,
      broadcastInDim ⟨2, ![a, b]⟩ ![0, 1] hb2 (broadcastInDim ⟨2, ![a, 1]⟩ ![0] hb1
            (maximumf (broadcastInDim ⟨1, ![a]⟩ ![] hb0 (constant (F := Ideal) ⟨0, ![]⟩ .f32 accm))
              (Host.reduce FloatOps.maximumf V (constant ⟨0, ![]⟩ .f32 accm) h' hu))) (ix2 p c)
        = (Finset.univ : Finset (Fin b)).fold max (Ideal.ofBits .f32 accm) (fun k => W p k) := fun c => by
    refine (broadcastInDim_a1_ab_apply _ hb2 p c).trans ?_
    refine (broadcastInDim_a_a1_apply _ hb1 p 0).trans ?_
    rw [maximumf_apply, broadcastInDim_scalar_a_apply _ hb0 (ix1 p) (Shape.Idx.first hu),
      hostReduce_max_row V _ h' h hu p]
    show max (Ideal.ofBits .f32 accm) ((Finset.univ : Finset (Fin b)).fold max (Ideal.ofBits .f32 accm) fun k => V (ix2 p k)) = _
    rw [max_eq_right ((Finset.le_fold_max _).mpr (Or.inl le_rfl))]
    exact Finset.fold_congr fun k _ => hV p k
  have hS : broadcastInDim ⟨2, ![a, 1]⟩ ![0] hb1
          (Host.reduceAdd (Host.exp (subf V
              (broadcastInDim ⟨2, ![a, b]⟩ ![0, 1] hb2 (broadcastInDim ⟨2, ![a, 1]⟩ ![0] hb1
                (maximumf (broadcastInDim ⟨1, ![a]⟩ ![] hb0 (constant (F := Ideal) ⟨0, ![]⟩ .f32 accm))
                  (Host.reduce FloatOps.maximumf V (constant ⟨0, ![]⟩ .f32 accm) h' hu))))))
            (constant ⟨0, ![]⟩ .f32 0x00000000#32) h' hu) (ix2 p (0 : Fin 1))
        = ∑ k : Fin b, Ideal.exp (W p k
            - (Finset.univ : Finset (Fin b)).fold max (Ideal.ofBits .f32 accm) (fun k => W p k)) := by
    refine (broadcastInDim_a_a1_apply _ hb1 p 0).trans ?_
    refine (hostReduceAdd_row _ _ h' h hu Ideal.ofBits_zero_f32 p).trans ?_
    refine Finset.sum_congr rfl fun k _ => ?_
    show Ideal.exp (V (ix2 p k) - _) = _
    rw [hM k, hV p k]
  rw [subf_apply, subf_apply, hM q, hV p q, broadcastInDim_a1_ab_apply _ hb2 p q]
  show _ - Ideal.log _ = _
  rw [hS]

end Cert.Stage4Aux

namespace Cert.KernelIdeal.Stage

open Cert.KernelIdeal Cert.KernelIdeal.Gen

/-- The last kernel's stored block is stage 4 on the block's rows; the bias enters as the one row of a 1 × 40 array. -/
theorem pay3_eq (x0 : Vec Ideal S2000x40 .f32) (x2 : Vec Ideal S1x40 .f32) :
    k3_pay1 (F := Ideal) x0 x2
      = Cert.Gcn.G4 (Ideal.ofBits .f32 0xFF800000#32) x0 (fun k => x2 (ix2 0 k)) := by
  funext i
  obtain ⟨p, q, rfl⟩ : ∃ (p : Fin 2000) (q : Fin 40), i = ix2 p q := ⟨i 0, i 1, eq_ix2 i⟩
  refine (Cert.Stage4Aux.logSoftmax_block _ _ _ _ _ _ _ _ _ (fun r k => x0 (ix2 r k) + x2 (ix2 0 k)) (fun r k => ?_) p q).trans rfl
  -- the biased block at (r, k): the identity casts drop, the bias row is read at column k
  show shapeCast S2000x40 x0 shapeCasts_S2000x40_S2000x40 (ix2 r k)
      + broadcastTo S2000x40 (shapeCast S1x40 x2 shapeCasts_S1x40_S1x40) broadcasts_S1x40_S2000x40 (ix2 r k) = _
  rw [shapeCast_self, shapeCast_self]
  exact congrArg (x0 (ix2 r k) + ·) (broadcastTo_1b_ab_apply x2 _ r k)

end Cert.KernelIdeal.Stage

namespace Cert.ReferenceIdeal.Stage

open Cert.ReferenceIdeal Cert.ReferenceIdeal.Gen

/-- The reference's bias add followed by its log-softmax is stage 4 on the whole array's rows. -/
theorem ref4_eq (H : FVec Ideal S50000x40 .f32) (b : FVec Ideal S40 .f32) :
    subf (subf (addf H (broadcastInDim S50000x40 ![0, 1] bcast_S1x40_S50000x40_0_1 (broadcastInDim S1x40 ![1] bcast_S40_S1x40_1 b)))
          (broadcastInDim S50000x40 ![0, 1] bcast_S50000x1_S50000x40_0_1 (broadcastInDim S50000x1 ![0] bcast_S50000_S50000x1_0
            (maximumf (broadcastInDim S50000 ![] bcast_S_S50000 (constant S_ .f32 0xFF800000#32))
              (Host.reduce FloatOps.maximumf (addf H (broadcastInDim S50000x40 ![0, 1] bcast_S1x40_S50000x40_0_1 (broadcastInDim S1x40 ![1] bcast_S40_S1x40_1 b))) (constant S_ .f32 0xFF800000#32) reducesTo_S50000x40_S50000_d1 h_S_)))))
        (broadcastInDim S50000x40 ![0, 1] bcast_S50000x1_S50000x40_0_1 (Host.log (broadcastInDim S50000x1 ![0] bcast_S50000_S50000x1_0
          (Host.reduceAdd (Host.exp (subf (addf H (broadcastInDim S50000x40 ![0, 1] bcast_S1x40_S50000x40_0_1 (broadcastInDim S1x40 ![1] bcast_S40_S1x40_1 b)))
              (broadcastInDim S50000x40 ![0, 1] bcast_S50000x1_S50000x40_0_1 (broadcastInDim S50000x1 ![0] bcast_S50000_S50000x1_0
                (maximumf (broadcastInDim S50000 ![] bcast_S_S50000 (constant S_ .f32 0xFF800000#32))
                  (Host.reduce FloatOps.maximumf (addf H (broadcastInDim S50000x40 ![0, 1] bcast_S1x40_S50000x40_0_1 (broadcastInDim S1x40 ![1] bcast_S40_S1x40_1 b))) (constant S_ .f32 0xFF800000#32) reducesTo_S50000x40_S50000_d1 h_S_))))))
            (constant S_ .f32 0x00000000#32) reducesTo_S50000x40_S50000_d1 h_S_))))
      = Cert.Gcn.G4 (Ideal.ofBits .f32 0xFF800000#32) H (fun k => b (ix1 k)) := by
  funext i
  obtain ⟨p, q, rfl⟩ : ∃ (p : Fin 50000) (q : Fin 40), i = ix2 p q := ⟨i 0, i 1, eq_ix2 i⟩
  refine (Cert.Stage4Aux.logSoftmax_host _ _ reducesTo_S50000x40_S50000_d1 (by decide) h_S_ _ _ _
    (fun r k => H (ix2 r k) + b (ix1 k)) (fun r k => ?_) p q).trans rfl
  -- the biased array at (r, k): the bias is read at column k through its two broadcasts
  rw [addf_apply]
  refine congrArg (H (ix2 r k) + ·) ?_
  exact (Cert.Stage4Aux.broadcastInDim_1b_ab_apply _ bcast_S1x40_S50000x40_0_1 r k).trans
    (Cert.Stage4Aux.broadcastInDim_b_1b_apply b bcast_S40_S1x40_1 0 k)

end Cert.ReferenceIdeal.Stage

end
-- ==== Proof.Region3.lean ====
/-
  The last kernel's result array: the log-softmax of h + b along each row of 40 entries.

  Point t of the 25 writes back rows 2000 t … 2000 t + 1999, computed from the same rows of h (the third sparse
  multiply's result) and from the bias row. Stage 4 acts on rows independently, so a block of rows of the whole array's
  result is the result on the block of rows; the 25 blocks cover the array.
-/
import proofs.«125993_j55147380080825_1_alg».proof.Proof.Gen.KernelIdeal.Frame
import proofs.«125993_j55147380080825_1_alg».proof.Proof.Spec
import proofs.«125993_j55147380080825_1_alg».proof.Proof.Stage4
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz3 : (![0, 0] : Fin 2 → Nat) = fun _ => 0 := funext fun a => by fin_cases a <;> rfl

/-- Where point t's blocks sit: block index (t, 0) for the row-tiled operand and the result, (0, 0) for the bias row. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of point t's block is row 2000 t + p of the array. -/
def rho3 (t : Fin cfg3.N) (p : Fin 2000) : Fin 50000 :=
  ⟨t.val * 2000 + p.val, by have h : t.val < 25 := (show cfg3.N = 25 from N_3) ▸ t.isLt; have := p.isLt; omega⟩

theorem iblk3_0 (c : Dev nD) (t : Fin cfg3.N) : (iblk3 V c 0 t : Vec Ideal S2000x40 .f32) = takeRows (V c main_v43 : Mat 50000 40) (rho3 t) := by
  obtain ⟨e0, e1, -⟩ := idx3 t
  funext y
  unfold iblk3
  rw [View.read_apply]
  show V c main_v43 _ = V c main_v43 _
  congr 1
  funext a
  apply Fin.ext
  match a with
  | ⟨0, _⟩ => show win3_0.index t 0 * 2000 + 1 * (y 0).val = t.val * 2000 + (y 0).val; rw [e0]; omega
  | ⟨1, _⟩ => show win3_0.index t 1 * 40 + 1 * (y 1).val = (y 1).val; rw [e1]; omega

theorem iblk3_1 (c : Dev nD) (t : Fin cfg3.N) : (iblk3 V c 1 t : Vec Ideal S1x40 .f32) = (V c main_v44 : Mat 1 40) := by
  obtain ⟨-, -, e0, e1, -⟩ := idx3 t
  funext y
  unfold iblk3
  rw [View.read_apply]
  show V c main_v44 _ = V c main_v44 _
  congr 1
  funext a
  apply Fin.ext
  match a with
  | ⟨0, _⟩ => show win3_1.index t 0 * 1 + 1 * (y 0).val = (y 0).val; rw [e0]; omega
  | ⟨1, _⟩ => show win3_1.index t 1 * 40 + 1 * (y 1).val = (y 1).val; rw [e1]; omega

theorem oblk3 (t : Fin cfg3.N) (Z : Mat 50000 40) : ((cfg3.win 2).blk t).view.read (Elt Ideal) Z = takeRows Z (rho3 t) := by
  obtain ⟨-, -, -, -, e0, e1⟩ := idx3 t
  funext y
  rw [View.read_apply]
  refine congrArg Z ?_
  funext a
  apply Fin.ext
  match a with
  | ⟨0, _⟩ => show win3_2.index t 0 * 2000 + 1 * (y 0).val = t.val * 2000 + (y 0).val; rw [e0]; omega
  | ⟨1, _⟩ => show win3_2.index t 1 * 40 + 1 * (y 1).val = (y 1).val; rw [e1]; omega

/-- What point t writes back is block t of stage 4 of the arrays the kernel finds. -/
theorem flushed3_eq (c : Dev nD) (t : Fin cfg3.N) :
    (dat3 V c).flushed 2 t = ((cfg3.win 2).blk t).view.read (Elt Ideal)
      (G4 (Ideal.ofBits .f32 0xFF800000#32) (V c main_v43) (fun k => (V c main_v44 : Mat 1 40) (ix2 0 k))) := by
  show (cfg3.win 2).cut (grid3.coords t) ((dat3 V c).after 2 t) = _
  rw [after3_2]
  unfold out3_2
  rw [View.canon_unit_zero hz3]
  simp only [View.ld_unit_zero (S := S2000x40) hz3, View.ld_unit_zero (S := S1x40) hz3]
  rw [Cert.KernelIdeal.Stage.pay3_eq, iblk3_0, iblk3_1, oblk3, G4_block]
  rfl

/-- An index of the result array is in point t's block iff each coordinate is in the block's range on its axis. -/
theorem mem_blk3 (t : Fin cfg3.N) (i : S50000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v45).slice (win3_2.rect t)).set ↔ _
  rw [View.set_slice_whole, Rect.mem_set_unit]
  exact Iff.rfl

/-- The result array after the last kernel is stage 4 of the arrays it finds: row r is covered by point r / 2000. -/
theorem region3_value (c : Dev nD) : (dat3 V c).arrAt 2 cfg3.N
    = G4 (Ideal.ofBits .f32 0xFF800000#32) (V c main_v43) (fun k => (V c main_v44 : Mat 1 40) (ix2 0 k)) :=
  (dat3 V c).arrAt_eq_of_cover 2 _ (fun t _ => flushed3_eq V c t) fun i => by
    have hi0 : (i 0).val < 50000 := (i 0).isLt
    have hi1 : (i 1).val < 40 := (i 1).isLt
    have hN : cfg3.N = 25 := N_3
    let t : Fin cfg3.N := ⟨(i 0).val / 2000, by rw [hN]; omega⟩
    obtain ⟨-, -, -, -, e0, e1⟩ := idx3 t
    refine ⟨t, flush3_2 t, ?_⟩
    rw [mem_blk3]
    intro a
    match a with
    | ⟨0, _⟩ =>
      show win3_2.index t 0 * 2000 ≤ (i 0).val ∧ (i 0).val < win3_2.index t 0 * 2000 + 2000
      rw [e0]; show (i 0).val / 2000 * 2000 ≤ (i 0).val ∧ (i 0).val < (i 0).val / 2000 * 2000 + 2000; omega
    | ⟨1, _⟩ =>
      show win3_2.index t 1 * 40 ≤ (i 1).val ∧ (i 1).val < win3_2.index t 1 * 40 + 40
      rw [e1]; omega

end Cert.KernelIdeal.Regions

end
-- ==== Proof.Hosts.lean ====
/-
  What the host operations between the kernels leave in the buffers the next kernel reads.

  Between two kernels the host runs the sparse multiply (a gather of the previous kernel's rows by the wrapped column
  index, a scaling by the edge value, a scatter-add by the row index) and reshapes a bias into one row. Nothing on the
  way writes an argument of the program, so each kernel finds the arguments as launched.
-/
import proofs.«125993_j55147380080825_1_alg».proof.Proof.Gen.KernelIdeal.Frame
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hosts

open Idealize.ShloMosaic Idealize.ShloMosaic.TcCoe Idealize.SL.Sem Idealize.ShloMosaic.ValueIdx
open Cert.KernelIdeal Cert.KernelIdeal.Gen

variable {F : FTy → Type} [FloatOps F]

/-- The sparse multiply of a 50000 × 128 matrix, as the host computes it: gather by the wrapped column index, scale by the
    edge value, scatter-add by the row index into zeros. -/
def spmm128 (row col : (⟨S800000, .i32⟩ : BufTy).Contents (Elt F)) (val : (⟨S800000, .f32⟩ : BufTy).Contents (Elt F))
    (sup : (⟨S50000x128, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 row) (mulf (broadcastInDim S800000x128 ![0, 1] bcast_S800000x1_S800000x128_0_1 (broadcastInDim S800000x1 ![0] bcast_S800000_S800000x1_0 val)) (Host.gather gather_S50000x128_S800000x1_S800000x128_1_0_n_n_0_1_1128 sup (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))))

/-- The sparse multiply of a 50000 × 40 matrix. -/
def spmm40 (row col : (⟨S800000, .i32⟩ : BufTy).Contents (Elt F)) (val : (⟨S800000, .f32⟩ : BufTy).Contents (Elt F))
    (sup : (⟨S50000x40, .f32⟩ : BufTy).Contents (Elt F)) : (⟨S50000x40, .f32⟩ : BufTy).Contents (Elt F) :=
  Host.scatterAdd scatter_S50000x40_S800000x1_S800000x40_1_0_0_1 (broadcastInDim S50000x40 ![] bcast_S_S50000x40 (constant S_ .f32 0x00000000#32)) (broadcastInDim S800000x1 ![0] bcast_S800000_S800000x1_0 row) (mulf (broadcastInDim S800000x40 ![0, 1] bcast_S800000x1_S800000x40_0_1 (broadcastInDim S800000x1 ![0] bcast_S800000_S800000x1_0 val)) (Host.gather gather_S50000x40_S800000x1_S800000x40_1_0_n_n_0_1_140 sup (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))))

variable (m : (ℓ : Loc nD τ sig) → Buf (Elt F) ℓ) (ρ : Dev nD → PrngReg)

/-! ## Every argument is as launched, level by level

No host operation writes an argument and no kernel's output array is one, so at each boundary an argument's buffer holds
what the level before held: a region keeps a buffer that is not one of its arrays, and keeps an input array as it found
it; a host stretch keeps a buffer that none of its operations writes. -/

/-- The buffers a host stretch writes are its operations' results, each a reference other than the given one. -/
local macro "writes_apart" : tactic =>
  `(tactic| (simp only [hostOps1, hostOps2, hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
             repeat' apply And.intro
             all_goals exact StableHlo.devRef_ne_of_ne (by decide)))

/-! ### Level 1 -/

theorem lv1_arg0 (c : Dev nD) : W1 m ρ c (Proc.devRef .tc main_arg0) = m ((c : Thread nD τ).loc main_arg0) :=
  (show W1 m ρ c (Proc.devRef .tc main_arg0) = W0 m ρ c (Proc.devRef .tc main_arg0) from
    (W1_arr m ρ c 0).trans (((dat0 (V0 m ρ) c).arrAt_in 0 rfl _).trans (A_eq0 (V0 m ρ) c 0))).trans (rfl)
theorem lv1_arg1 (c : Dev nD) : W1 m ρ c (Proc.devRef .tc main_arg1) = m ((c : Thread nD τ).loc main_arg1) :=
  (show W1 m ρ c (Proc.devRef .tc main_arg1) = W0 m ρ c (Proc.devRef .tc main_arg1) from
    W1_of_ne m ρ c main_arg1 (by decide)).trans (rfl)
theorem lv1_arg2 (c : Dev nD) : W1 m ρ c (Proc.devRef .tc main_arg2) = m ((c : Thread nD τ).loc main_arg2) :=
  (show W1 m ρ c (Proc.devRef .tc main_arg2) = W0 m ρ c (Proc.devRef .tc main_arg2) from
    W1_of_ne m ρ c main_arg2 (by decide)).trans (rfl)
theorem lv1_arg3 (c : Dev nD) : W1 m ρ c (Proc.devRef .tc main_arg3) = m ((c : Thread nD τ).loc main_arg3) :=
  (show W1 m ρ c (Proc.devRef .tc main_arg3) = W0 m ρ c (Proc.devRef .tc main_arg3) from
    W1_of_ne m ρ c main_arg3 (by decide)).trans (rfl)
theorem lv1_arg5 (c : Dev nD) : W1 m ρ c (Proc.devRef .tc main_arg5) = m ((c : Thread nD τ).loc main_arg5) :=
  (show W1 m ρ c (Proc.devRef .tc main_arg5) = W0 m ρ c (Proc.devRef .tc main_arg5) from
    W1_of_ne m ρ c main_arg5 (by decide)).trans (rfl)
theorem lv1_arg6 (c : Dev nD) : W1 m ρ c (Proc.devRef .tc main_arg6) = m ((c : Thread nD τ).loc main_arg6) :=
  (show W1 m ρ c (Proc.devRef .tc main_arg6) = W0 m ρ c (Proc.devRef .tc main_arg6) from
    W1_of_ne m ρ c main_arg6 (by decide)).trans (rfl)
theorem lv1_arg7 (c : Dev nD) : W1 m ρ c (Proc.devRef .tc main_arg7) = m ((c : Thread nD τ).loc main_arg7) :=
  (show W1 m ρ c (Proc.devRef .tc main_arg7) = W0 m ρ c (Proc.devRef .tc main_arg7) from
    W1_of_ne m ρ c main_arg7 (by decide)).trans (rfl)
theorem lv1_arg8 (c : Dev nD) : W1 m ρ c (Proc.devRef .tc main_arg8) = m ((c : Thread nD τ).loc main_arg8) :=
  (show W1 m ρ c (Proc.devRef .tc main_arg8) = W0 m ρ c (Proc.devRef .tc main_arg8) from
    W1_of_ne m ρ c main_arg8 (by decide)).trans (rfl)
theorem lv1_arg9 (c : Dev nD) : W1 m ρ c (Proc.devRef .tc main_arg9) = m ((c : Thread nD τ).loc main_arg9) :=
  (show W1 m ρ c (Proc.devRef .tc main_arg9) = W0 m ρ c (Proc.devRef .tc main_arg9) from
    W1_of_ne m ρ c main_arg9 (by decide)).trans (rfl)
theorem lv1_arg10 (c : Dev nD) : W1 m ρ c (Proc.devRef .tc main_arg10) = m ((c : Thread nD τ).loc main_arg10) :=
  (show W1 m ρ c (Proc.devRef .tc main_arg10) = W0 m ρ c (Proc.devRef .tc main_arg10) from
    W1_of_ne m ρ c main_arg10 (by decide)).trans (rfl)

/-! ### Level 2 -/

theorem lv2_arg0 (c : Dev nD) : W2 m ρ c (Proc.devRef .tc main_arg0) = m ((c : Thread nD τ).loc main_arg0) :=
  (show W2 m ρ c (Proc.devRef .tc main_arg0) = W1 m ρ c (Proc.devRef .tc main_arg0) from
    StableHlo.after_of_forall_not_mem (b := Proc.devRef .tc main_arg0) _ _ (List.forall_iff_forall_mem.mp (by writes_apart))).trans (lv1_arg0 m ρ c)
theorem lv2_arg1 (c : Dev nD) : W2 m ρ c (Proc.devRef .tc main_arg1) = m ((c : Thread nD τ).loc main_arg1) :=
  (show W2 m ρ c (Proc.devRef .tc main_arg1) = W1 m ρ c (Proc.devRef .tc main_arg1) from
    StableHlo.after_of_forall_not_mem (b := Proc.devRef .tc main_arg1) _ _ (List.forall_iff_forall_mem.mp (by writes_apart))).trans (lv1_arg1 m ρ c)
theorem lv2_arg2 (c : Dev nD) : W2 m ρ c (Proc.devRef .tc main_arg2) = m ((c : Thread nD τ).loc main_arg2) :=
  (show W2 m ρ c (Proc.devRef .tc main_arg2) = W1 m ρ c (Proc.devRef .tc main_arg2) from
    StableHlo.after_of_forall_not_mem (b := Proc.devRef .tc main_arg2) _ _ (List.forall_iff_forall_mem.mp (by writes_apart))).trans (lv1_arg2 m ρ c)
theorem lv2_arg3 (c : Dev nD) : W2 m ρ c (Proc.devRef .tc main_arg3) = m ((c : Thread nD τ).loc main_arg3) :=
  (show W2 m ρ c (Proc.devRef .tc main_arg3) = W1 m ρ c (Proc.devRef .tc main_arg3) from
    StableHlo.after_of_forall_not_mem (b := Proc.devRef .tc main_arg3) _ _ (List.forall_iff_forall_mem.mp (by writes_apart))).trans (lv1_arg3 m ρ c)
theorem lv2_arg6 (c : Dev nD) : W2 m ρ c (Proc.devRef .tc main_arg6) = m ((c : Thread nD τ).loc main_arg6) :=
  (show W2 m ρ c (Proc.devRef .tc main_arg6) = W1 m ρ c (Proc.devRef .tc main_arg6) from
    StableHlo.after_of_forall_not_mem (b := Proc.devRef .tc main_arg6) _ _ (List.forall_iff_forall_mem.mp (by writes_apart))).trans (lv1_arg6 m ρ c)
theorem lv2_arg7 (c : Dev nD) : W2 m ρ c (Proc.devRef .tc main_arg7) = m ((c : Thread nD τ).loc main_arg7) :=
  (show W2 m ρ c (Proc.devRef .tc main_arg7) = W1 m ρ c (Proc.devRef .tc main_arg7) from
    StableHlo.after_of_forall_not_mem (b := Proc.devRef .tc main_arg7) _ _ (List.forall_iff_forall_mem.mp (by writes_apart))).trans (lv1_arg7 m ρ c)
theorem lv2_arg8 (c : Dev nD) : W2 m ρ c (Proc.devRef .tc main_arg8) = m ((c : Thread nD τ).loc main_arg8) :=
  (show W2 m ρ c (Proc.devRef .tc main_arg8) = W1 m ρ c (Proc.devRef .tc main_arg8) from
    StableHlo.after_of_forall_not_mem (b := Proc.devRef .tc main_arg8) _ _ (List.forall_iff_forall_mem.mp (by writes_apart))).trans (lv1_arg8 m ρ c)
theorem lv2_arg9 (c : Dev nD) : W2 m ρ c (Proc.devRef .tc main_arg9) = m ((c : Thread nD τ).loc main_arg9) :=
  (show W2 m ρ c (Proc.devRef .tc main_arg9) = W1 m ρ c (Proc.devRef .tc main_arg9) from
    StableHlo.after_of_forall_not_mem (b := Proc.devRef .tc main_arg9) _ _ (List.forall_iff_forall_mem.mp (by writes_apart))).trans (lv1_arg9 m ρ c)
theorem lv2_arg10 (c : Dev nD) : W2 m ρ c (Proc.devRef .tc main_arg10) = m ((c : Thread nD τ).loc main_arg10) :=
  (show W2 m ρ c (Proc.devRef .tc main_arg10) = W1 m ρ c (Proc.devRef .tc main_arg10) from
    StableHlo.after_of_forall_not_mem (b := Proc.devRef .tc main_arg10) _ _ (List.forall_iff_forall_mem.mp (by writes_apart))).trans (lv1_arg10 m ρ c)

/-! ### Level 3 -/

theorem lv3_arg0 (c : Dev nD) : W3 m ρ c (Proc.devRef .tc main_arg0) = m ((c : Thread nD τ).loc main_arg0) :=
  (show W3 m ρ c (Proc.devRef .tc main_arg0) = W2 m ρ c (Proc.devRef .tc main_arg0) from
    (W3_arr m ρ c 1).trans (((dat1 (V2 m ρ) c).arrAt_in 1 rfl _).trans (A_eq1 (V2 m ρ) c 1))).trans (lv2_arg0 m ρ c)
theorem lv3_arg1 (c : Dev nD) : W3 m ρ c (Proc.devRef .tc main_arg1) = m ((c : Thread nD τ).loc main_arg1) :=
  (show W3 m ρ c (Proc.devRef .tc main_arg1) = W2 m ρ c (Proc.devRef .tc main_arg1) from
    W3_of_ne m ρ c main_arg1 (by decide)).trans (lv2_arg1 m ρ c)
theorem lv3_arg2 (c : Dev nD) : W3 m ρ c (Proc.devRef .tc main_arg2) = m ((c : Thread nD τ).loc main_arg2) :=
  (show W3 m ρ c (Proc.devRef .tc main_arg2) = W2 m ρ c (Proc.devRef .tc main_arg2) from
    W3_of_ne m ρ c main_arg2 (by decide)).trans (lv2_arg2 m ρ c)
theorem lv3_arg3 (c : Dev nD) : W3 m ρ c (Proc.devRef .tc main_arg3) = m ((c : Thread nD τ).loc main_arg3) :=
  (show W3 m ρ c (Proc.devRef .tc main_arg3) = W2 m ρ c (Proc.devRef .tc main_arg3) from
    W3_of_ne m ρ c main_arg3 (by decide)).trans (lv2_arg3 m ρ c)
theorem lv3_arg7 (c : Dev nD) : W3 m ρ c (Proc.devRef .tc main_arg7) = m ((c : Thread nD τ).loc main_arg7) :=
  (show W3 m ρ c (Proc.devRef .tc main_arg7) = W2 m ρ c (Proc.devRef .tc main_arg7) from
    W3_of_ne m ρ c main_arg7 (by decide)).trans (lv2_arg7 m ρ c)
theorem lv3_arg8 (c : Dev nD) : W3 m ρ c (Proc.devRef .tc main_arg8) = m ((c : Thread nD τ).loc main_arg8) :=
  (show W3 m ρ c (Proc.devRef .tc main_arg8) = W2 m ρ c (Proc.devRef .tc main_arg8) from
    W3_of_ne m ρ c main_arg8 (by decide)).trans (lv2_arg8 m ρ c)
theorem lv3_arg9 (c : Dev nD) : W3 m ρ c (Proc.devRef .tc main_arg9) = m ((c : Thread nD τ).loc main_arg9) :=
  (show W3 m ρ c (Proc.devRef .tc main_arg9) = W2 m ρ c (Proc.devRef .tc main_arg9) from
    W3_of_ne m ρ c main_arg9 (by decide)).trans (lv2_arg9 m ρ c)
theorem lv3_arg10 (c : Dev nD) : W3 m ρ c (Proc.devRef .tc main_arg10) = m ((c : Thread nD τ).loc main_arg10) :=
  (show W3 m ρ c (Proc.devRef .tc main_arg10) = W2 m ρ c (Proc.devRef .tc main_arg10) from
    (W3_arr m ρ c 3).trans (((dat1 (V2 m ρ) c).arrAt_in 3 rfl _).trans (A_eq1 (V2 m ρ) c 3))).trans (lv2_arg10 m ρ c)

/-! ### Level 4 -/

theorem lv4_arg0 (c : Dev nD) : W4 m ρ c (Proc.devRef .tc main_arg0) = m ((c : Thread nD τ).loc main_arg0) :=
  (show W4 m ρ c (Proc.devRef .tc main_arg0) = W3 m ρ c (Proc.devRef .tc main_arg0) from
    StableHlo.after_of_forall_not_mem (b := Proc.devRef .tc main_arg0) _ _ (List.forall_iff_forall_mem.mp (by writes_apart))).trans (lv3_arg0 m ρ c)
theorem lv4_arg1 (c : Dev nD) : W4 m ρ c (Proc.devRef .tc main_arg1) = m ((c : Thread nD τ).loc main_arg1) :=
  (show W4 m ρ c (Proc.devRef .tc main_arg1) = W3 m ρ c (Proc.devRef .tc main_arg1) from
    StableHlo.after_of_forall_not_mem (b := Proc.devRef .tc main_arg1) _ _ (List.forall_iff_forall_mem.mp (by writes_apart))).trans (lv3_arg1 m ρ c)
theorem lv4_arg2 (c : Dev nD) : W4 m ρ c (Proc.devRef .tc main_arg2) = m ((c : Thread nD τ).loc main_arg2) :=
  (show W4 m ρ c (Proc.devRef .tc main_arg2) = W3 m ρ c (Proc.devRef .tc main_arg2) from
    StableHlo.after_of_forall_not_mem (b := Proc.devRef .tc main_arg2) _ _ (List.forall_iff_forall_mem.mp (by writes_apart))).trans (lv3_arg2 m ρ c)
theorem lv4_arg3 (c : Dev nD) : W4 m ρ c (Proc.devRef .tc main_arg3) = m ((c : Thread nD τ).loc main_arg3) :=
  (show W4 m ρ c (Proc.devRef .tc main_arg3) = W3 m ρ c (Proc.devRef .tc main_arg3) from
    StableHlo.after_of_forall_not_mem (b := Proc.devRef .tc main_arg3) _ _ (List.forall_iff_forall_mem.mp (by writes_apart))).trans (lv3_arg3 m ρ c)
theorem lv4_arg8 (c : Dev nD) : W4 m ρ c (Proc.devRef .tc main_arg8) = m ((c : Thread nD τ).loc main_arg8) :=
  (show W4 m ρ c (Proc.devRef .tc main_arg8) = W3 m ρ c (Proc.devRef .tc main_arg8) from
    StableHlo.after_of_forall_not_mem (b := Proc.devRef .tc main_arg8) _ _ (List.forall_iff_forall_mem.mp (by writes_apart))).trans (lv3_arg8 m ρ c)
theorem lv4_arg9 (c : Dev nD) : W4 m ρ c (Proc.devRef .tc main_arg9) = m ((c : Thread nD τ).loc main_arg9) :=
  (show W4 m ρ c (Proc.devRef .tc main_arg9) = W3 m ρ c (Proc.devRef .tc main_arg9) from
    StableHlo.after_of_forall_not_mem (b := Proc.devRef .tc main_arg9) _ _ (List.forall_iff_forall_mem.mp (by writes_apart))).trans (lv3_arg9 m ρ c)
theorem lv4_arg10 (c : Dev nD) : W4 m ρ c (Proc.devRef .tc main_arg10) = m ((c : Thread nD τ).loc main_arg10) :=
  (show W4 m ρ c (Proc.devRef .tc main_arg10) = W3 m ρ c (Proc.devRef .tc main_arg10) from
    StableHlo.after_of_forall_not_mem (b := Proc.devRef .tc main_arg10) _ _ (List.forall_iff_forall_mem.mp (by writes_apart))).trans (lv3_arg10 m ρ c)

/-! ### Level 5 -/

theorem lv5_arg1 (c : Dev nD) : W5 m ρ c (Proc.devRef .tc main_arg1) = m ((c : Thread nD τ).loc main_arg1) :=
  (show W5 m ρ c (Proc.devRef .tc main_arg1) = W4 m ρ c (Proc.devRef .tc main_arg1) from
    W5_of_ne m ρ c main_arg1 (by decide)).trans (lv4_arg1 m ρ c)
theorem lv5_arg2 (c : Dev nD) : W5 m ρ c (Proc.devRef .tc main_arg2) = m ((c : Thread nD τ).loc main_arg2) :=
  (show W5 m ρ c (Proc.devRef .tc main_arg2) = W4 m ρ c (Proc.devRef .tc main_arg2) from
    W5_of_ne m ρ c main_arg2 (by decide)).trans (lv4_arg2 m ρ c)
theorem lv5_arg3 (c : Dev nD) : W5 m ρ c (Proc.devRef .tc main_arg3) = m ((c : Thread nD τ).loc main_arg3) :=
  (show W5 m ρ c (Proc.devRef .tc main_arg3) = W4 m ρ c (Proc.devRef .tc main_arg3) from
    W5_of_ne m ρ c main_arg3 (by decide)).trans (lv4_arg3 m ρ c)
theorem lv5_arg9 (c : Dev nD) : W5 m ρ c (Proc.devRef .tc main_arg9) = m ((c : Thread nD τ).loc main_arg9) :=
  (show W5 m ρ c (Proc.devRef .tc main_arg9) = W4 m ρ c (Proc.devRef .tc main_arg9) from
    W5_of_ne m ρ c main_arg9 (by decide)).trans (lv4_arg9 m ρ c)

/-! ## A vector viewed as one row -/

/-- A vector of `n` entries viewed as a single row reads, at column `k`, its entry `k`: both sit at row-major position `k`. -/
theorem rowOfVec_apply {α : Type} {n : Nat} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h (ix2 (0 : Fin 1) k) (ix1 k) (by
    rw [Shape.rowMajor_val_two, Shape.rowMajor_val_one]; show k.val = 0 * n + k.val; omega)

/-! ## The first kernel's entry -/

theorem V0_arg0 (c : Dev nD) : V0 m ρ c main_arg0 = m ((c : Thread nD τ).loc main_arg0) := rfl
theorem V0_arg4 (c : Dev nD) : V0 m ρ c main_arg4 = m ((c : Thread nD τ).loc main_arg4) := rfl

/-! ## The second kernel's entry -/

theorem V2_v13 (c : Dev nD) : V2 m ρ c main_v13 = spmm128 (m ((c : Thread nD τ).loc main_arg1)) (m ((c : Thread nD τ).loc main_arg2)) (m ((c : Thread nD τ).loc main_arg3)) (V1 m ρ c main_v0) := by
  show StableHlo.after hostOps1 (W1 m ρ c) (Proc.devRef .tc main_v13) = _
  after_results_simp
  rw [lv1_arg1, lv1_arg2, lv1_arg3]
  rfl
theorem V2_v14_apply (c : Dev nD) (k : Fin 128) :
    (V2 m ρ c main_v14 : S1x128.Idx → Elt F .f32) (ix2 0 k) = (m ((c : Thread nD τ).loc main_arg5) : S128.Idx → Elt F .f32) (ix1 k) := by
  have h : W2 m ρ c (Proc.devRef .tc main_v14)
      = fun i => shapeCast S1x128 (m ((c : Thread nD τ).loc main_arg5) : S128.Idx → Elt F .f32) shapeCasts_S128_S1x128 i := by
    show StableHlo.after hostOps1 (W1 m ρ c) (Proc.devRef .tc main_v14) = _
    after_results
    rw [lv1_arg5]
    rfl
  exact (congrFun h (ix2 0 k)).trans (rowOfVec_apply _ _ k)
theorem V2_arg0 (c : Dev nD) : V2 m ρ c main_arg0 = m ((c : Thread nD τ).loc main_arg0) := by
  exact lv2_arg0 m ρ c
theorem V2_arg10 (c : Dev nD) : V2 m ρ c main_arg10 = m ((c : Thread nD τ).loc main_arg10) := by
  exact lv2_arg10 m ρ c
theorem V2_arg6 (c : Dev nD) : V2 m ρ c main_arg6 = m ((c : Thread nD τ).loc main_arg6) := by
  exact lv2_arg6 m ρ c

/-! ## The third kernel's entry -/

theorem V4_v28 (c : Dev nD) : V4 m ρ c main_v28 = spmm128 (m ((c : Thread nD τ).loc main_arg1)) (m ((c : Thread nD τ).loc main_arg2)) (m ((c : Thread nD τ).loc main_arg3)) (V3 m ρ c main_v15) := by
  show StableHlo.after hostOps2 (W3 m ρ c) (Proc.devRef .tc main_v28) = _
  after_results_simp
  rw [lv3_arg1, lv3_arg2, lv3_arg3]
  rfl
theorem V4_v29_apply (c : Dev nD) (k : Fin 128) :
    (V4 m ρ c main_v29 : S1x128.Idx → Elt F .f32) (ix2 0 k) = (m ((c : Thread nD τ).loc main_arg7) : S128.Idx → Elt F .f32) (ix1 k) := by
  have h : W4 m ρ c (Proc.devRef .tc main_v29)
      = fun i => shapeCast S1x128 (m ((c : Thread nD τ).loc main_arg7) : S128.Idx → Elt F .f32) shapeCasts_S128_S1x128 i := by
    show StableHlo.after hostOps2 (W3 m ρ c) (Proc.devRef .tc main_v29) = _
    after_results
    rw [lv3_arg7]
    rfl
  exact (congrFun h (ix2 0 k)).trans (rowOfVec_apply _ _ k)
theorem V4_arg0 (c : Dev nD) : V4 m ρ c main_arg0 = m ((c : Thread nD τ).loc main_arg0) := by
  exact lv4_arg0 m ρ c
theorem V4_arg10 (c : Dev nD) : V4 m ρ c main_arg10 = m ((c : Thread nD τ).loc main_arg10) := by
  exact lv4_arg10 m ρ c
theorem V4_arg8 (c : Dev nD) : V4 m ρ c main_arg8 = m ((c : Thread nD τ).loc main_arg8) := by
  exact lv4_arg8 m ρ c

/-! ## The last kernel's entry -/

theorem V6_v43 (c : Dev nD) : V6 m ρ c main_v43 = spmm40 (m ((c : Thread nD τ).loc main_arg1)) (m ((c : Thread nD τ).loc main_arg2)) (m ((c : Thread nD τ).loc main_arg3)) (V5 m ρ c main_v30) := by
  show StableHlo.after hostOps3 (W5 m ρ c) (Proc.devRef .tc main_v43) = _
  after_results_simp
  rw [lv5_arg1, lv5_arg2, lv5_arg3]
  rfl
theorem V6_v44_apply (c : Dev nD) (k : Fin 40) :
    (V6 m ρ c main_v44 : S1x40.Idx → Elt F .f32) (ix2 0 k) = (m ((c : Thread nD τ).loc main_arg9) : S40.Idx → Elt F .f32) (ix1 k) := by
  have h : W6 m ρ c (Proc.devRef .tc main_v44)
      = fun i => shapeCast S1x40 (m ((c : Thread nD τ).loc main_arg9) : S40.Idx → Elt F .f32) shapeCasts_S40_S1x40 i := by
    show StableHlo.after hostOps3 (W5 m ρ c) (Proc.devRef .tc main_v44) = _
    after_results
    rw [lv5_arg9]
    rfl
  exact (congrFun h (ix2 0 k)).trans (rowOfVec_apply _ _ k)

end Cert.KernelIdeal.Hosts

end
-- ==== Proof.KValue.lean ====
/-
  The kernel program's result, as one function of the arguments.

  Reading the run backwards from the result buffer: the last kernel leaves stage 4 of what it finds; what it finds is the
  third sparse multiply of the third kernel's result and the reshaped bias; and so on back to the first kernel, which finds
  the arguments as launched. Each kernel's array is its stage of the arrays it finds (one module per kernel), each host
  stretch's results are the sparse multiply and the bias row, and no argument is written on the way.
-/
import proofs.«125993_j55147380080825_1_alg».proof.Proof.KRun
import proofs.«125993_j55147380080825_1_alg».proof.Proof.Region0
import proofs.«125993_j55147380080825_1_alg».proof.Proof.Region1
import proofs.«125993_j55147380080825_1_alg».proof.Proof.Region2
import proofs.«125993_j55147380080825_1_alg».proof.Proof.Region3
import proofs.«125993_j55147380080825_1_alg».proof.Proof.Hosts

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Regions Cert.KernelIdeal.Hosts Cert.Gcn

variable (m : (ℓ : Loc nD τ sig) → Buf (Elt Ideal) ℓ) (ρ : Dev nD → PrngReg)

/-- The pattern of the zero that relu compares with, and of the −∞ the row maximum is folded from, kept as words. -/
abbrev zeroW : EReal := Ideal.ofBits .f32 0x00000000#32
abbrev ninfW : EReal := Ideal.ofBits .f32 0xFF800000#32

/-- After the first kernel: x · W1. -/
def k1 (c : Dev nD) : Mat 50000 128 := G1 (m ((c : Thread nD τ).loc main_arg0)) (m ((c : Thread nD τ).loc main_arg4))

/-- After the second kernel: stage 2 of the first sparse multiply. -/
def k2 (c : Dev nD) : Mat 50000 128 :=
  G2 zeroW (spmm128 (m ((c : Thread nD τ).loc main_arg1)) (m ((c : Thread nD τ).loc main_arg2)) (m ((c : Thread nD τ).loc main_arg3)) (k1 m c)) (m ((c : Thread nD τ).loc main_arg0)) (fun k => ((m ((c : Thread nD τ).loc main_arg5)) : S128.Idx → EReal) (ix1 k)) (m ((c : Thread nD τ).loc main_arg10)) (m ((c : Thread nD τ).loc main_arg6))

/-- After the third kernel: stage 3 of the second sparse multiply. -/
def k3 (c : Dev nD) : Mat 50000 40 :=
  G3 (spmm128 (m ((c : Thread nD τ).loc main_arg1)) (m ((c : Thread nD τ).loc main_arg2)) (m ((c : Thread nD τ).loc main_arg3)) (k2 m c)) (m ((c : Thread nD τ).loc main_arg0)) (fun k => ((m ((c : Thread nD τ).loc main_arg7)) : S128.Idx → EReal) (ix1 k)) (m ((c : Thread nD τ).loc main_arg10)) (m ((c : Thread nD τ).loc main_arg8))

/-- The kernel program's result: stage 4 of the third sparse multiply. -/
def kresult (c : Dev nD) : Buf (Elt Ideal) ((c.tc : Thread nD τ).loc main_v45) :=
  G4 ninfW (spmm40 (m ((c : Thread nD τ).loc main_arg1)) (m ((c : Thread nD τ).loc main_arg2)) (m ((c : Thread nD τ).loc main_arg3)) (k3 m c)) (fun k => ((m ((c : Thread nD τ).loc main_arg9)) : S40.Idx → EReal) (ix1 k))

theorem V1_v0 (c : Dev nD) : V1 m ρ c main_v0 = k1 m c := by
  refine (hF0 m ρ c 2).symm.trans ?_
  rw [region0_value (V0 m ρ) c, V0_arg0, V0_arg4]
  rfl

theorem V3_v15 (c : Dev nD) : V3 m ρ c main_v15 = k2 m c := by
  refine (hF1 m ρ c 5).symm.trans ?_
  rw [region1_value (V2 m ρ) c, V2_v13, V2_arg0, V2_arg10, V2_arg6, V1_v0, funext (V2_v14_apply m ρ c)]
  rfl

theorem V5_v30 (c : Dev nD) : V5 m ρ c main_v30 = k3 m c := by
  refine (hF2 m ρ c 5).symm.trans ?_
  rw [region2_value (V4 m ρ) c, V4_v28, V4_arg0, V4_arg10, V4_arg8, V3_v15, funext (V4_v29_apply m ρ c)]
  rfl

theorem V7_v45 (c : Dev nD) : V7 m ρ c main_v45 = kresult m c := by
  refine (hF3 m ρ c 2).symm.trans ?_
  rw [region3_value (V6 m ρ) c, V6_v43, V5_v30, funext (V6_v44_apply m ρ c)]
  rfl

/-- Every weakly fair execution of the kernel program terminates with the result at `kresult` and the arguments unchanged. -/
theorem run : θ_run defs (onTc (τ := τ) (main (F := Ideal))) ⟨m, fun _ => 0, ρ⟩ (fun r => ∀ c : Dev nD,
      r.2.mem ((c.tc : Thread nD τ).loc main_v45) = kresult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (V7_v45 m ρ c), (h c).2⟩) (Cert.KernelIdeal.RunValue.run_value m ρ)

end Cert.KernelIdeal.KValue

end
-- ==== Proof.RValue.lean ====
/-
  The reference's result, as one function of the arguments: its stages are the row functions at 50000 rows.
-/
import proofs.«125993_j55147380080825_1_alg».proof.Proof.RefRunH
import proofs.«125993_j55147380080825_1_alg».proof.Proof.Stage23
import proofs.«125993_j55147380080825_1_alg».proof.Proof.Stage4
import proofs.«125993_j55147380080825_1_alg».proof.Proof.Spec

set_option maxRecDepth 16384

noncomputable section

namespace Cert.ReferenceIdeal.RValue

open Idealize.ShloMosaic Idealize.ShloMosaic.TcCoe Idealize.SL.Sem Idealize.ShloMosaic.ValueIdx
open Cert.ReferenceIdeal Cert.ReferenceIdeal.Gen Cert.ReferenceIdeal.RunH Cert.ReferenceIdeal.Stage Cert.Gcn

/-- The first dense product is stage 1 on the whole arrays' rows. -/
theorem dense1_eq (X : FVec Ideal S50000x128 .f32) (W : FVec Ideal S128x128 .f32) : dense1 (F := Ideal) X W = G1 X W := by
  funext i
  obtain ⟨p, q, rfl⟩ : ∃ (p : Fin 50000) (q : Fin 128), i = ix2 p q := ⟨i 0, i 1, eq_ix2 i⟩
  exact Cert.Stage23Aux.hostDot_rowDot 50000 128 128 X W p q

theorem dense2_eq (H X : FVec Ideal S50000x128 .f32) (b : FVec Ideal S128 .f32) (Cm : FVec Ideal S256x128 .f32) (W : FVec Ideal S128x128 .f32) :
    dense2 (F := Ideal) H X b Cm W = G2 (Ideal.ofBits .f32 0x00000000#32) H X (fun k => b (ix1 k)) Cm W := ref2_eq H X b Cm W

theorem dense3_eq (H X : FVec Ideal S50000x128 .f32) (b : FVec Ideal S128 .f32) (Cm : FVec Ideal S256x128 .f32) (W : FVec Ideal S128x40 .f32) :
    dense3 (F := Ideal) H X b Cm W = G3 H X (fun k => b (ix1 k)) Cm W := ref3_eq H X b Cm W

theorem lsm_eq (H : FVec Ideal S50000x40 .f32) (b : FVec Ideal S40 .f32) :
    lsm (F := Ideal) H b = G4 (Ideal.ofBits .f32 0xFF800000#32) H (fun k => b (ix1 k)) := ref4_eq H b

variable (m : (ℓ : Loc nD τ sig) → Buf (Elt Ideal) ℓ)

/-- After the reference's first dense product. -/
def r1 (c : Dev nD) : Mat 50000 128 := G1 (m ((c.tc : Thread nD τ).loc main_arg0)) (m ((c.tc : Thread nD τ).loc main_arg4))

/-- After its second dense stage. -/
def r2 (c : Dev nD) : Mat 50000 128 :=
  G2 (Ideal.ofBits .f32 0x00000000#32) (spmm128 (m ((c.tc : Thread nD τ).loc main_arg1)) (m ((c.tc : Thread nD τ).loc main_arg2)) (m ((c.tc : Thread nD τ).loc main_arg3)) (r1 m c)) (m ((c.tc : Thread nD τ).loc main_arg0)) (fun k => ((m ((c.tc : Thread nD τ).loc main_arg5)) : S128.Idx → EReal) (ix1 k)) (m ((c.tc : Thread nD τ).loc main_arg10)) (m ((c.tc : Thread nD τ).loc main_arg6))

/-- After its third dense stage. -/
def r3 (c : Dev nD) : Mat 50000 40 :=
  G3 (spmm128 (m ((c.tc : Thread nD τ).loc main_arg1)) (m ((c.tc : Thread nD τ).loc main_arg2)) (m ((c.tc : Thread nD τ).loc main_arg3)) (r2 m c)) (m ((c.tc : Thread nD τ).loc main_arg0)) (fun k => ((m ((c.tc : Thread nD τ).loc main_arg7)) : S128.Idx → EReal) (ix1 k)) (m ((c.tc : Thread nD τ).loc main_arg10)) (m ((c.tc : Thread nD τ).loc main_arg8))

/-- The reference's result over the row functions. -/
def rresult (c : Dev nD) : Buf (Elt Ideal) ((c.tc : Thread nD τ).loc main_v56) :=
  G4 (Ideal.ofBits .f32 0xFF800000#32) (spmm40 (m ((c.tc : Thread nD τ).loc main_arg1)) (m ((c.tc : Thread nD τ).loc main_arg2)) (m ((c.tc : Thread nD τ).loc main_arg3)) (r3 m c)) (fun k => ((m ((c.tc : Thread nD τ).loc main_arg9)) : S40.Idx → EReal) (ix1 k))

theorem result_eq (c : Dev nD) : RunH.result m c = rresult m c := by
  unfold RunH.result
  rw [lsm_eq, dense3_eq, dense2_eq, dense1_eq]
  rfl

end Cert.ReferenceIdeal.RValue

end
-- ==== Proof.Bridge.lean ====
/-
  The two programs compute one function of the arguments.

  Both results are the same tower: stage 4 of the sparse multiply of stage 3 of the sparse multiply of stage 2 of the
  sparse multiply of stage 1, over the same row functions. The kernel program reaches it block by block through its four
  kernels, the reference through whole-array host operations; the sparse multiply is the same host chain in both programs.
-/
import proofs.«125993_j55147380080825_1_alg».proof.Defs
import proofs.«125993_j55147380080825_1_alg».proof.Proof.Gen.Pre_finite_inputs
import proofs.«125993_j55147380080825_1_alg».proof.Proof.KValue
import proofs.«125993_j55147380080825_1_alg».proof.Proof.RValue

set_option maxRecDepth 16384

noncomputable section

namespace Cert.Proof.Bridge

open Idealize.ShloMosaic Idealize.ShloMosaic.TcCoe Idealize.SL.Sem

/-- The two programs' sparse multiplies of a 50000 × 128 matrix are one host chain. -/
theorem spmm128_eq {F : FTy → Type} [FloatOps F]
    (row col : (⟨Cert.ReferenceIdeal.S800000, .i32⟩ : BufTy).Contents (Elt F)) (val : (⟨Cert.ReferenceIdeal.S800000, .f32⟩ : BufTy).Contents (Elt F))
    (sup : (⟨Cert.ReferenceIdeal.S50000x128, .f32⟩ : BufTy).Contents (Elt F)) :
    Cert.ReferenceIdeal.RunH.spmm128 row col val sup = Cert.KernelIdeal.Hosts.spmm128 row col val sup := rfl

/-- The two programs' sparse multiplies of a 50000 × 40 matrix are one host chain. -/
theorem spmm40_eq {F : FTy → Type} [FloatOps F]
    (row col : (⟨Cert.ReferenceIdeal.S800000, .i32⟩ : BufTy).Contents (Elt F)) (val : (⟨Cert.ReferenceIdeal.S800000, .f32⟩ : BufTy).Contents (Elt F))
    (sup : (⟨Cert.ReferenceIdeal.S50000x40, .f32⟩ : BufTy).Contents (Elt F)) :
    Cert.ReferenceIdeal.RunH.spmm40 row col val sup = Cert.KernelIdeal.Hosts.spmm40 row col val sup := rfl

/-- At the ideal values the kernel program and the reference, run from memories that agree on the arguments, end with
    the same result array: both are the same tower of row functions and sparse multiplies of the arguments. -/
theorem algebraic : Cert.algebraic_KernelIdeal_ReferenceIdeal := by
  intro m ρ m' ρ' _ hagree
  refine ⟨fun c => Cert.KernelIdeal.KValue.kresult m c, Cert.KernelIdeal.KValue.run m ρ, ?_⟩
  refine (θ_run Cert.ReferenceIdeal.defs _ _).mono (fun _ h c => ⟨(h c).1.trans ?_, (h c).2⟩)
    (Cert.ReferenceIdeal.RunH.run (F := Ideal) m' ρ')
  rw [Cert.ReferenceIdeal.RValue.result_eq]
  obtain ⟨h0, h1, h2, h3, h4, h5, h6, h7, h8, h9, h10⟩ := hagree c
  unfold Cert.ReferenceIdeal.RValue.rresult Cert.ReferenceIdeal.RValue.r3 Cert.ReferenceIdeal.RValue.r2 Cert.ReferenceIdeal.RValue.r1
  unfold Cert.KernelIdeal.KValue.kresult Cert.KernelIdeal.KValue.k3 Cert.KernelIdeal.KValue.k2 Cert.KernelIdeal.KValue.k1
  rw [h0, h1, h2, h3, h4, h5, h6, h7, h8, h9, h10, spmm40_eq, spmm128_eq, spmm128_eq]

end Cert.Proof.Bridge

end
-- ==== Proof.lean ====
/-
  The certificate: the three frames, the (empty) idealization ledger, and the equivalence over the extended reals.

  The network is three graph-convolution layers. Its dense stages — x · W1; ((relu (h + b1) ‖ x) · C) · W2;
  (((h + b2) ‖ x) · C) · W3; the log-softmax of h + b3 — act on the rows of their operands independently, and between them
  the sparse multiply by the adjacency matrix (a gather, a scaling, a scatter-add) is the same host chain in the kernel
  program and in the reference. The kernel program runs each dense stage as a Pallas kernel over 25 blocks of 2000 rows;
  the reference runs it as whole-array host operations. At the ideal values a change of float format is the identity and
  a matrix product is the plain sum over the shared axis, so a block of rows of a stage's result is the stage on the
  block of rows, the 25 blocks cover the array, and both programs compute one tower of row functions of the arguments.
  No law of the extended reals beyond the sums' own definitions is used, so the precondition is never opened.
-/
import proofs.«125993_j55147380080825_1_alg».proof.Defs
import proofs.«125993_j55147380080825_1_alg».proof.Proof.Gen.Kernel
import proofs.«125993_j55147380080825_1_alg».proof.Proof.Gen.Kernel.Frame
import proofs.«125993_j55147380080825_1_alg».proof.Proof.Gen.KernelIdeal
import proofs.«125993_j55147380080825_1_alg».proof.Proof.Gen.KernelIdeal.Frame
import proofs.«125993_j55147380080825_1_alg».proof.Proof.Gen.ReferenceIdeal
import proofs.«125993_j55147380080825_1_alg».proof.Proof.Gen.Pre_finite_inputs
import proofs.«125993_j55147380080825_1_alg».proof.Proof.RefRunH
import proofs.«125993_j55147380080825_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame. -/
theorem frame_k : @Cert.frame_Kernel Cert.Kernel.Gen.facts Cert.Pre_finite_inputs.Gen.facts :=
  fun m ρ _ => Cert.Kernel.Gen.frame m ρ

/-- The idealized kernel program runs and keeps its arguments: the generated frame. -/
theorem frame_ki : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RunH.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Bridge.algebraic⟩

end Cert.Proof

end
